-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x2048 : Shape := ⟨2, ![2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S2048x2048 .f32) (main_arg2 : FVec F S1024x3072 .f32) (main_arg3 : FVec F S3072 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S4x2048x1024 : Shape := ⟨3, ![4, 2048, 1024]⟩
abbrev S2048x2048 : Shape := ⟨2, ![2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S4x16x2048x64 : Shape := ⟨4, ![4, 16, 2048, 64]⟩
abbrev S256x1024 : Shape := ⟨2, ![256, 1024]⟩
abbrev S1x16x256x64 : Shape := ⟨4, ![1, 16, 256, 64]⟩
abbrev S256x3072 : Shape := ⟨2, ![256, 3072]⟩
abbrev S256x16x192 : Shape := ⟨3, ![256, 16, 192]⟩
abbrev S256x16x64 : Shape := ⟨3, ![256, 16, 64]⟩
abbrev S16x256x64 : Shape := ⟨3, ![16, 256, 64]⟩
abbrev S1x2x256x64 : Shape := ⟨4, ![1, 2, 256, 64]⟩
abbrev S1x2x2048x64 : Shape := ⟨4, ![1, 2, 2048, 64]⟩
abbrev S1x256x128 : Shape := ⟨3, ![1, 256, 128]⟩
abbrev S2x256x64 : Shape := ⟨3, ![2, 256, 64]⟩
abbrev S2x2048x64 : Shape := ⟨3, ![2, 2048, 64]⟩
abbrev S2x256x2048 : Shape := ⟨3, ![2, 256, 2048]⟩
abbrev S256x2048 : Shape := ⟨2, ![256, 2048]⟩
abbrev S1x256x2048 : Shape := ⟨3, ![1, 256, 2048]⟩
abbrev S2x256 : Shape := ⟨2, ![2, 256]⟩
abbrev S2x256x1 : Shape := ⟨3, ![2, 256, 1]⟩
abbrev S1x256x64 : Shape := ⟨3, ![1, 256, 64]⟩
abbrev S256x64 : Shape := ⟨2, ![256, 64]⟩
abbrev S256x128 : Shape := ⟨2, ![256, 128]⟩
abbrev S1x1024 : Shape := ⟨2, ![1, 1024]⟩
abbrev S512x1024 : Shape := ⟨2, ![512, 1024]⟩

abbrev nBuf : Space → Nat
  | .hbm => 19
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S2048x2048, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S8192x1024, .bf16⟩
  | .hbm, ⟨8, _⟩ => ⟨S1024x3072, .bf16⟩
  | .hbm, ⟨9, _⟩ => ⟨S1x3072, .f32⟩
  | .hbm, ⟨10, _⟩ => ⟨S4x16x2048x64, .bf16⟩
  | .hbm, ⟨11, _⟩ => ⟨S4x16x2048x64, .bf16⟩
  | .hbm, ⟨12, _⟩ => ⟨S4x16x2048x64, .bf16⟩
  | .hbm, ⟨13, _⟩ => ⟨S4x2048x1024, .f32⟩
  | .hbm, ⟨14, _⟩ => ⟨S8192x1024, .f32⟩
  | .hbm, ⟨15, _⟩ => ⟨S1024x1024, .bf16⟩
  | .hbm, ⟨16, _⟩ => ⟨S1x1024, .f32⟩
  | .hbm, ⟨17, _⟩ => ⟨S8192x1024, .f32⟩
  | .hbm, ⟨18, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S1x3072, .f32⟩
  | .local _ .vmem, ⟨4, _⟩ => ⟨S1x16x256x64, .bf16⟩
  | .local _ .vmem, ⟨5, _⟩ => ⟨S1x16x256x64, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x64, .bf16⟩
  | .local _ .vmem, ⟨9, _⟩ => ⟨S1x16x256x64, .bf16⟩
  | .local _ .vmem, ⟨10, _⟩ => ⟨S1x2x256x64, .bf16⟩
  | .local _ .vmem, ⟨11, _⟩ => ⟨S1x2x256x64, .bf16⟩
  | .local _ .vmem, ⟨12, _⟩ => ⟨S1x2x2048x64, .bf16⟩
  | .local _ .vmem, ⟨13, _⟩ => ⟨S1x2x2048x64, .bf16⟩
  | .local _ .vmem, ⟨14, _⟩ => ⟨S1x2x2048x64, .bf16⟩
  | .local _ .vmem, ⟨15, _⟩ => ⟨S1x2x2048x64, .bf16⟩
  | .local _ .vmem, ⟨16, _⟩ => ⟨S2048x2048, .f32⟩
  | .local _ .vmem, ⟨17, _⟩ => ⟨S1x256x128, .f32⟩
  | .local _ .vmem, ⟨18, _⟩ => ⟨S1x256x128, .f32⟩
  | .local _ .vmem, ⟨19, _⟩ => ⟨S512x1024, .f32⟩
  | .local _ .vmem, ⟨20, _⟩ => ⟨S512x1024, .f32⟩
  | .local _ .vmem, ⟨21, _⟩ => ⟨S1024x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 8, 8], ![false, false, false]⟩

def k1_mult1 (i : grid1.Coords) : BitVec 32 :=
  let arg2 : BitVec 32 := BitVec.ofNat 32 (i 2).val
  let c256_i32 : BitVec 32 := 256#32
  let v0 : BitVec 32 := Scalar.muli arg2 c256_i32
  v0
def k1_off1 (i : grid1.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v11 : Index := Scalar.indexCast v1
  let c0_12 : Index := 0#32
  ![v11.toNat, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  shapeCasts_S256x3072_S256x16x192 : S256x3072.ShapeCasts S256x16x192
  slices_S256x16x192_o0_0_0_S256x16x64 : S256x16x192.Slices ![0, 0, 0] S256x16x64
  slices_S256x16x192_o0_0_64_S256x16x64 : S256x16x192.Slices ![0, 0, 64] S256x16x64
  slices_S256x16x192_o0_0_128_S256x16x64 : S256x16x192.Slices ![0, 0, 128] S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  packedbf16_S1x16x256x64_S1x16x256x64_0_0_0_0 : (Rect.unit (s := S1x16x256x64) ![0, 0, 0, 0] S1x16x256x64.size inb_S1x16x256x64_S1x16x256x64_0_0_0_0).PackedRows (EltTy.packing .bf16)
  inb_S1x2x256x64_S1x2x256x64_0_0_0_0 : ∀ a, (![0, 0, 0, 0] : Fin 4 → Nat) a + S1x2x256x64.size a ≤ S1x2x256x64.size a
  h_S1x2x256x64 : 0 < S1x2x256x64.numel
  shapeCasts_S1x2x256x64_S2x256x64 : S1x2x256x64.ShapeCasts S2x256x64
  inb_S1x2x2048x64_S1x2x2048x64_0_0_0_0 : ∀ a, (![0, 0, 0, 0] : Fin 4 → Nat) a + S1x2x2048x64.size a ≤ S1x2x2048x64.size a
  h_S1x2x2048x64 : 0 < S1x2x2048x64.numel
  shapeCasts_S1x2x2048x64_S2x2048x64 : S1x2x2048x64.ShapeCasts S2x2048x64
  h_S256x2048 : 0 < S256x2048.numel
  shapeCasts_S256x2048_S1x256x2048 : S256x2048.ShapeCasts S1x256x2048
  broadcasts_S1x256x2048_S2x256x2048 : S1x256x2048.Broadcasts S2x256x2048
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  slices_S2x256x64_o0_0_0_S1x256x64 : S2x256x64.Slices ![0, 0, 0] S1x256x64
  shapeCasts_S1x256x64_S256x64 : S1x256x64.ShapeCasts S256x64
  slices_S2x256x64_o1_0_0_S1x256x64 : S2x256x64.Slices ![1, 0, 0] S1x256x64
  concatenates_S256x64_S256x64_S256x128_d1 : Shape.Concatenates [S256x64, S256x64] S256x128 1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S256x1024_S1024x3072_S256x3072_1_0_0_1_n_n_wf : DotDims.WF S256x1024 S1024x3072 S256x3072 [1] [0] [0] [1] [] []
  dot_S2x256x64_S2x2048x64_S2x256x2048_2_2_1_1_0_0_wf : DotDims.WF S2x256x64 S2x2048x64 S2x256x2048 [2] [2] [1] [1] [0] [0]
  dot_S2x256x2048_S2x2048x64_S2x256x64_2_1_1_2_0_0_wf : DotDims.WF S2x256x2048 S2x2048x64 S2x256x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S4x16x2048x64.size a
  hwx0_3 : ∀ i : grid0.Coords, EltTy.bits .bf16 = 32 ∨ (Rect.block (s := S4x16x2048x64) S1x16x256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S4x16x2048x64.size a
  hwx0_4 : ∀ i : grid0.Coords, EltTy.bits .bf16 = 32 ∨ (Rect.block (s := S4x16x2048x64) S1x16x256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x64.size a ≤ S4x16x2048x64.size a
  hwx0_5 : ∀ i : grid0.Coords, EltTy.bits .bf16 = 32 ∨ (Rect.block (s := S4x16x2048x64) S1x16x256x64.size (cc0_transform_5 i) (hinb0_5 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x2048.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x256x64.size a ≤ S4x16x2048x64.size a
  hwx1_0 : ∀ i : grid1.Coords, EltTy.bits .bf16 = 32 ∨ (Rect.block (s := S4x16x2048x64) S1x2x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x64.size a ≤ S4x16x2048x64.size a
  hwx1_1 : ∀ i : grid1.Coords, EltTy.bits .bf16 = 32 ∨ (Rect.block (s := S4x16x2048x64) S1x2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048x64.size a ≤ S4x16x2048x64.size a
  hwx1_2 : ∀ i : grid1.Coords, EltTy.bits .bf16 = 32 ∨ (Rect.block (s := S4x16x2048x64) S1x2x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .f32 = 32 ∨ (Rect.block (s := S2048x2048) S2048x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x128.size a ≤ S4x2048x1024.size a
  hwx1_4 : ∀ i : grid1.Coords, EltTy.bits .f32 = 32 ∨ (Rect.block (s := S4x2048x1024) S1x256x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S2x256x64_S2x2048x64_S2x256x2048_2_2_1_1_0_0 : DotDims S2x256x64 S2x2048x64 S2x256x2048 where
  lhsContracting := [2]
  rhsContracting := [2]
  lhsNonContracting := [1]
  rhsNonContracting := [1]
  lhsBatch := [0]
  rhsBatch := [0]
  wf := dot_S2x256x64_S2x2048x64_S2x256x2048_2_2_1_1_0_0_wf
def dot_S2x256x2048_S2x2048x64_S2x256x64_2_1_1_2_0_0 : DotDims S2x256x2048 S2x2048x64 S2x256x64 where
  lhsContracting := [2]
  rhsContracting := [1]
  lhsNonContracting := [1]
  rhsNonContracting := [2]
  lhsBatch := [0]
  rhsBatch := [0]
  wf := dot_S2x256x2048_S2x2048x64_S2x256x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x16x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x16x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S1x2x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S2048x2048 : Shape := ⟨2, ![2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S_ : Shape := ⟨0, ![]⟩
abbrev S4x16x2048x2048 : Shape := ⟨4, ![4, 16, 2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x2048, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S4x2048x3072, .f32⟩
  | .hbm, ⟨7, _⟩ => ⟨S1x1x3072, .f32⟩
  | .hbm, ⟨8, _⟩ => ⟨S4x2048x3072, .f32⟩
  | .hbm, ⟨9, _⟩ => ⟨S4x2048x3072, .f32⟩
  | .hbm, ⟨10, _⟩ => ⟨S4x2048x16x192, .f32⟩
  | .hbm, ⟨11, _⟩ => ⟨S4x16x2048x192, .f32⟩
  | .hbm, ⟨12, _⟩ => ⟨S4x16x2048x64, .f32⟩
  | .hbm, ⟨13, _⟩ => ⟨S4x16x2048x64, .f32⟩
  | .hbm, ⟨14, _⟩ => ⟨S4x16x2048x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S1x1x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S_, .f32⟩
  | .hbm, ⟨28, _⟩ => ⟨S4x16x2048, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x64, .f32⟩
  | .hbm, ⟨40, _⟩ => ⟨S4x2048x16x64, .f32⟩
  | .hbm, ⟨41, _⟩ => ⟨S4x2048x1024, .f32⟩
  | .hbm, ⟨42, _⟩ => ⟨S4x2048x1024, .f32⟩
  | .hbm, ⟨43, _⟩ => ⟨S1x1x1024, .f32⟩
  | .hbm, ⟨44, _⟩ => ⟨S4x2048x1024, .f32⟩
  | .hbm, ⟨45, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.Spec.lean ====
/-
  The mathematics both programs compute, as functions of whole arrays over the extended reals, index by index.

  Multi-head self-attention over x : [4, 2048, 1024] with 16 heads of width 64:
  * `proj off`: one of the three projections. Row (b, s) of x times the weight matrix plus the bias gives 3072 columns,
    laid out per head as 192 = 64 (query) + 64 (key) + 64 (value); `proj off` at (b, h, s, d) is column h * 192 + off + d.
  * `attn`: per (b, h, s) the scores against every key t are (q · k) * scale + mask (s, t); the row is shifted by its
    maximum, exponentiated and normalised by its sum (softmax), and the weights are applied to the values; head h's 64
    outputs land in columns h * 64 .. h * 64 + 63 of the [4, 2048, 1024] result.
  * `outp`: the output projection, rows times the second weight matrix plus its bias.
  * `flat` / `unflat` move between [4, 2048, 1024] and [8192, 1024] (row = b * 2048 + s); `rowOf` reads a vector as a
    one-row matrix.
  `G` is their composition. Float literals stay as the words the programs spell; only 1 / sqrt 64 = 1/8 is evaluated.
-/
import Idealize.ShloMosaic.PureOps.Ideal
import Idealize.ShloMosaic.Lib.ValueIdx

noncomputable section

open scoped BigOperators

namespace Cert.Attention

open Idealize.ShloMosaic Idealize.ShloMosaic.ValueIdx

/-- [batch, position, feature] -/
abbrev A3 : Type := (⟨3, ![4, 2048, 1024]⟩ : Shape).Idx → EReal
/-- [batch * 2048 + position, feature] -/
abbrev A2 : Type := (⟨2, ![8192, 1024]⟩ : Shape).Idx → EReal
/-- the fused projection weights -/
abbrev AW : Type := (⟨2, ![1024, 3072]⟩ : Shape).Idx → EReal
/-- the fused projection bias as one row -/
abbrev AB : Type := (⟨2, ![1, 3072]⟩ : Shape).Idx → EReal
/-- [batch, head, position, head feature] -/
abbrev AH : Type := (⟨4, ![4, 16, 2048, 64]⟩ : Shape).Idx → EReal
/-- the additive mask [query position, key position] -/
abbrev AM : Type := (⟨2, ![2048, 2048]⟩ : Shape).Idx → EReal
/-- the output projection weights -/
abbrev AWo : Type := (⟨2, ![1024, 1024]⟩ : Shape).Idx → EReal
/-- the output projection bias as one row -/
abbrev ABo : Type := (⟨2, ![1, 1024]⟩ : Shape).Idx → EReal

/-- The softmax scale both programs use: the word of 0.125. -/
def scale : EReal := Ideal.ofBits .f32 0x3E000000#32
/-- The value a row maximum starts from: the word of -inf. -/
def ninf : EReal := Ideal.ofBits .f32 0xFF800000#32

/-- Column `h * 192 + off + d` of row `b * 2048 + s` of `xf · W + bias`. -/
def projAt (off : Nat) (hoff : off + 64 ≤ 192) (xf : A2) (W : AW) (bias : AB) (b : Fin 4) (h : Fin 16) (s : Fin 2048) (d : Fin 64) : EReal :=
  (∑ e : Fin 1024, xf (ix2 (⟨b.val * 2048 + s.val, by omega⟩ : Fin 8192) e) * W (ix2 e (⟨h.val * 192 + off + d.val, by omega⟩ : Fin 3072)))
    + bias (ix2 (0 : Fin 1) (⟨h.val * 192 + off + d.val, by omega⟩ : Fin 3072))

/-- One projection as a [4, 16, 2048, 64] array. -/
def proj (off : Nat) (hoff : off + 64 ≤ 192) (xf : A2) (W : AW) (bias : AB) : AH :=
  fun i => projAt off hoff xf W bias (i 0) (i 1) (i 2) (i 3)

/-- The score of query position `s` against key position `t` in head `h` of batch `b`. -/
def score (sc : EReal) (q k : AH) (mask : AM) (b : Fin 4) (h : Fin 16) (s t : Fin 2048) : EReal :=
  (∑ d : Fin 64, q (ix4 b h s d) * k (ix4 b h t d)) * sc + mask (ix2 s t)

/-- The maximum of a row of scores (folded from `n0`). -/
def rowMax (n0 sc : EReal) (q k : AH) (mask : AM) (b : Fin 4) (h : Fin 16) (s : Fin 2048) : EReal :=
  (Finset.univ : Finset (Fin 2048)).fold max n0 (score sc q k mask b h s)

/-- The shifted exponential of a score. -/
def pnum (n0 sc : EReal) (q k : AH) (mask : AM) (b : Fin 4) (h : Fin 16) (s t : Fin 2048) : EReal :=
  Ideal.exp (score sc q k mask b h s t - rowMax n0 sc q k mask b h s)

/-- The softmax weight of key position `t`. -/
def weight (n0 sc : EReal) (q k : AH) (mask : AM) (b : Fin 4) (h : Fin 16) (s t : Fin 2048) : EReal :=
  Ideal.div (pnum n0 sc q k mask b h s t) (∑ t' : Fin 2048, pnum n0 sc q k mask b h s t')

/-- Feature `d` of head `h`'s output at position `s`. -/
def headOut (n0 sc : EReal) (q k v : AH) (mask : AM) (b : Fin 4) (h : Fin 16) (s : Fin 2048) (d : Fin 64) : EReal :=
  ∑ t : Fin 2048, weight n0 sc q k mask b h s t * v (ix4 b h t d)

/-- The heads' outputs side by side: column `e` belongs to head `e / 64`, feature `e % 64`. -/
def attn (n0 sc : EReal) (q k v : AH) (mask : AM) : A3 :=
  fun i => headOut n0 sc q k v mask (i 0) (⟨(i 2).val / 64, by have := (i 2).isLt; simp at this; omega⟩ : Fin 16) (i 1)
    (⟨(i 2).val % 64, Nat.mod_lt _ (by norm_num)⟩ : Fin 64)

/-- Rows times weights plus the bias row. -/
def outp (a : A2) (W : AWo) (bias : ABo) : A2 :=
  fun i => (∑ e : Fin 1024, a (ix2 (i 0) e) * W (ix2 e (i 1))) + bias (ix2 (0 : Fin 1) (i 1))

/-- [4, 2048, 1024] read as [8192, 1024]. -/
def flat (a : A3) : A2 :=
  fun i => a (ix3 (⟨(i 0).val / 2048, by have := (i 0).isLt; simp at this; omega⟩ : Fin 4) (⟨(i 0).val % 2048, Nat.mod_lt _ (by norm_num)⟩ : Fin 2048) (i 1))

/-- [8192, 1024] read as [4, 2048, 1024]. -/
def unflat (a : A2) : A3 :=
  fun i => a (ix2 (⟨(i 0).val * 2048 + (i 1).val, by have h0 := (i 0).isLt; have h1 := (i 1).isLt; simp at h0 h1; omega⟩ : Fin 8192) (i 2))

/-- A vector of length `n` read as a one-row matrix. -/
def rowOf {n : Nat} (b : (⟨1, ![n]⟩ : Shape).Idx → EReal) : (⟨2, ![1, n]⟩ : Shape).Idx → EReal :=
  fun i => b (ix1 (i 1))

/-- The whole computation, as one function of the six inputs. -/
def G (x : A3) (mask : AM) (Wqkv : AW) (bqkv : (⟨1, ![3072]⟩ : Shape).Idx → EReal) (Wo : AWo) (bo : (⟨1, ![1024]⟩ : Shape).Idx → EReal) : A3 :=
  unflat (outp (flat (attn ninf scale
    (proj 0 (by norm_num) (flat x) Wqkv (rowOf bqkv))
    (proj 64 (by norm_num) (flat x) Wqkv (rowOf bqkv))
    (proj 128 (by norm_num) (flat x) Wqkv (rowOf bqkv)) mask)) Wo (rowOf bo))

/-! ## The one evaluated constant -/

/-- The word of 64.0 is the real 64. -/
theorem ofBits_64 : Ideal.ofBits .f32 0x42800000#32 = ((64 : ℝ) : EReal) := by
  simp [Ideal.ofBits, Ideal.ieee, -EReal.coe_mul]; norm_num

/-- The word of 1.0 is 1. -/
theorem ofBits_one : Ideal.ofBits .f32 0x3F800000#32 = ((1 : ℝ) : EReal) := by
  simp [Ideal.ofBits, Ideal.ieee, -EReal.coe_mul]; norm_num

/-- The word of 0.125 is the real 1/8. -/
theorem ofBits_eighth : Ideal.ofBits .f32 0x3E000000#32 = ((1 / 8 : ℝ) : EReal) := by
  simp [Ideal.ofBits, Ideal.ieee, -EReal.coe_mul]; norm_num

/-- 1 / sqrt 64 is 1/8 exactly, so the reference's computed scale is the kernel's literal. -/
theorem scale_eq : Ideal.div (Ideal.ofBits .f32 0x3F800000#32) (Ideal.sqrt (Ideal.ofBits .f32 0x42800000#32)) = scale := by
  have hs : Real.sqrt 64 = 8 := by
    rw [show (64 : ℝ) = 8 ^ 2 by norm_num]; exact Real.sqrt_sq (by norm_num)
  rw [scale, ofBits_64, ofBits_one, ofBits_eighth, Ideal.sqrt_coe, if_neg (by norm_num), hs,
    Ideal.div_coe (by norm_num : (8 : ℝ) ≠ 0), ← EReal.coe_mul]
  norm_num

end Cert.Attention

end
-- ==== Proof.SpecLayout.lean ====
/-
  The reshapes between [4, 2048, 1024] and [8192, 1024] (a shape cast keeps the row-major position: row = b * 2048 + s)
  and between a vector and a one-row matrix, as the index functions `flat`, `unflat`, `rowOf` of the specification.
-/
import proofs.«428168_j50998441673227_3_alg».proof.Proof.Spec
import Idealize.ShloMosaic.Lib.Pipeline.Value

noncomputable section

namespace Cert.Attention

open Idealize.ShloMosaic Idealize.ShloMosaic.ValueIdx

/-- Casting [4, 2048, 1024] to [8192, 1024] reads row `r` at (r / 2048, r % 2048). -/
theorem shapeCast_flat (a : A3) (h : (⟨3, ![4, 2048, 1024]⟩ : Shape).ShapeCasts ⟨2, ![8192, 1024]⟩) :
    shapeCast ⟨2, ![8192, 1024]⟩ a h = flat a := by
  funext j
  unfold flat
  refine shapeCast_apply a h j _ ?_
  rw [Shape.rowMajor_val_three, Shape.rowMajor_val_two]
  show ((j 0).val / 2048 * 2048 + (j 0).val % 2048) * 1024 + (j 1).val = (j 0).val * 1024 + (j 1).val
  have := Nat.div_add_mod (j 0).val 2048
  omega

/-- Casting [8192, 1024] to [4, 2048, 1024] reads (b, s) at row b * 2048 + s. -/
theorem shapeCast_unflat (a : A2) (h : (⟨2, ![8192, 1024]⟩ : Shape).ShapeCasts ⟨3, ![4, 2048, 1024]⟩) :
    shapeCast ⟨3, ![4, 2048, 1024]⟩ a h = unflat a := by
  funext j
  unfold unflat
  refine shapeCast_apply a h j _ ?_
  rw [Shape.rowMajor_val_three, Shape.rowMajor_val_two]
  rfl

/-- Casting a vector to a one-row matrix reads column `e` at `e`. -/
theorem shapeCast_rowOf {n : Nat} (b : (⟨1, ![n]⟩ : Shape).Idx → EReal) (h : (⟨1, ![n]⟩ : Shape).ShapeCasts ⟨2, ![1, n]⟩) :
    shapeCast ⟨2, ![1, n]⟩ b h = rowOf b := by
  funext j
  unfold rowOf
  refine shapeCast_apply b h j _ ?_
  rw [Shape.rowMajor_val_one, Shape.rowMajor_val_two]
  show (j 1).val = (j 0).val * n + (j 1).val
  have h0 : (j 0).val < 1 := (j 0).isLt
  have : (j 0).val = 0 := by omega
  rw [this]; omega

end Cert.Attention

end
-- ==== Proof.QkvValue.lean ====
/-
  The first region: each grid point multiplies 256 rows of the flattened input by the whole weight matrix, adds the bias
  row, and writes the three 64-column groups of every head to the query, key and value arrays. After the last point the
  three arrays are the three projections of the arrays the region was entered with.

  The road. (1) One stored block, entry by entry: the product into the zero accumulator is a sum over the 1024 contracted
  coordinates; the reshape [256, 3072] → [256, 16, 192] keeps row-major positions, so entry (r, h, c) is column h * 192 + c
  of row r; the slice at offset `off`, the exchange of the first two axes and the added unit axis make stored entry
  (u, h, r, d) column h * 192 + off + d of row r. (2) Point `t` holds rows 256 t … 256 t + 255 of the input and the whole
  weights and bias, and its stored block lies at block index (t / 8, 0, t % 8, 0) of the result; row
  (t / 8) * 2048 + (t % 8) * 256 + r is row 256 t + r, so what the point writes back is its block of the projection.
  (3) Index (b, h, s, d) lies in the block of point b * 8 + s / 256, so the blocks cover the array.
-/
import proofs.«428168_j50998441673227_3_alg».proof.Proof.Gen.KernelIdeal.Frame
import proofs.«428168_j50998441673227_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Attention

-- the buffer contents a region is entered from: a parameter
variable (V : (c : Dev nD) → (b : Ref sig .tc) → Buf (Elt Ideal) ((c : Thread nD τ).loc b))

namespace Qkv

/-! ## The product's operand indices -/

theorem lhs_qkv_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_qkv_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_qkv_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_qkv_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The product into the zero accumulator, read at row `r` and column `col`. -/
theorem matmul_qkv_apply (x0 : FVec Ideal S256x1024 .bf16) (x1 : FVec Ideal S1024x3072 .bf16) (r : Fin 256) (col : Fin 3072) :
    FloatOps.matmul dot_S256x1024_S1024x3072_S256x3072_1_0_0_1_n_n none x0 x1 (constant (F := Ideal) S256x3072 .f32 0x00000000#32) (ix2 r col)
      = ∑ e : Fin 1024, x0 (ix2 r e) * x1 (ix2 e col) := by
  refine (Ideal.matmul_constant_zero_apply dot_S256x1024_S1024x3072_S256x3072_1_0_0_1_n_n none x0 x1 (ix2 r col)).trans ?_
  rw [← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 r col) ((contrEquiv1 dot_S256x1024_S1024x3072_S256x3072_1_0_0_1_n_n 1024 rfl rfl).symm k) = ix2 r k := funext fun a => Fin.ext (by
    match a with
    | ⟨0, _⟩ => exact lhs_qkv_0 _ _
    | ⟨1, _⟩ => exact (lhs_qkv_1 _ _).trans hk)
  have er : dot_S256x1024_S1024x3072_S256x3072_1_0_0_1_n_n.rhsIdx (ix2 r col) ((contrEquiv1 dot_S256x1024_S1024x3072_S256x3072_1_0_0_1_n_n 1024 rfl rfl).symm k) = ix2 k col := funext fun a => Fin.ext (by
    match a with
    | ⟨0, _⟩ => exact (rhs_qkv_0 _ _).trans hk
    | ⟨1, _⟩ => exact rhs_qkv_1 _ _)
  rw [el, er]

/-- The rows times the weights plus the bias row, laid out [256, 16, 192]: entry (r, h, c) is column h * 192 + c of row r. -/
theorem pay1_apply (x0 : Vec Ideal S256x1024 .bf16) (x1 : Vec Ideal S1024x3072 .bf16) (x2 : Vec Ideal S1x3072 .f32)
    (r : Fin 256) (h : Fin 16) (c : Fin 192) (col : Fin 3072) (hcol : col.val = h.val * 192 + c.val) :
    k0_pay1 (F := Ideal) x0 x1 x2 (ix3 r h c)
      = (∑ e : Fin 1024, x0 (ix2 r e) * x1 (ix2 e col)) + x2 (ix2 (0 : Fin 1) col) := by
  unfold k0_pay1
  refine (shapeCast_apply _ shapeCasts_S256x3072_S256x16x192 (ix3 r h c) (ix2 r col) ?_).trans ?_
  · rw [Shape.rowMajor_val_two, Shape.rowMajor_val_three]
    show r.val * 3072 + col.val = (r.val * 16 + h.val) * 192 + c.val
    omega
  · rw [truncf_apply, addf_apply]
    simp only [shapeCast_self]
    exact congrArg₂ (· + ·) (matmul_qkv_apply x0 x1 r _) (broadcastTo_1b_ab_apply x2 _ r _)

/-- One 64-column group of every head, heads first: entry (u, h, r, d) of the stored block is entry (r, h, off + d) of the
    [256, 16, 192] layout. -/
theorem head_group_apply {α : Type} (off : Nat) (X : S256x16x192.Idx → α) (hs : S256x16x192.Slices ![0, 0, off] S256x16x64)
    (u : Fin 1) (h : Fin 16) (r : Fin 256) (d : Fin 64) (c : Fin 192) (hc : c.val = off + d.val) :
    shapeCast S1x16x256x64 (transpose S16x256x64 [1, 0, 2] (extractStridedSlice S256x16x64 ![0, 0, off] X hs)
        transposes_S256x16x64_p1_0_2_S16x256x64) shapeCasts_S16x256x64_S1x16x256x64 (ix4 u h r d) = X (ix3 r h c) := by
  refine (shapeCast_abc_1abc_apply _ shapeCasts_S16x256x64_S1x16x256x64 u h r d).trans ?_
  refine (transpose_apply [1, 0, 2] _ transposes_S256x16x64_p1_0_2_S16x256x64 (ix3 h r d) (ix3 r h d) fun b => ?_).trans ?_
  · match b with
    | ⟨0, _⟩ => rfl
    | ⟨1, _⟩ => rfl
    | ⟨2, _⟩ => rfl
  · refine extractStridedSlice_apply _ X hs (ix3 r h d) (ix3 r h c) fun a => ?_
    match a with
    | ⟨0, _⟩ => show r.val = 0 + r.val; omega
    | ⟨1, _⟩ => show h.val = 0 + h.val; omega
    | ⟨2, _⟩ => show c.val = off + d.val; exact hc

/-- A stored block at (u, h, r, d): column `h * 192 + off + d` of row `r` of the loaded rows times the weights, plus the bias. -/
theorem pay_group_apply (off : Nat) (hs : S256x16x192.Slices ![0, 0, off] S256x16x64) (hoff : off + 64 ≤ 192)
    (x0 : Vec Ideal S256x1024 .bf16) (x1 : Vec Ideal S1024x3072 .bf16) (x2 : Vec Ideal S1x3072 .f32)
    (u : Fin 1) (h : Fin 16) (r : Fin 256) (d : Fin 64) (col : Fin 3072) (hcol : col.val = h.val * 192 + off + d.val) :
    shapeCast S1x16x256x64 (transpose S16x256x64 [1, 0, 2] (extractStridedSlice S256x16x64 ![0, 0, off] (k0_pay1 (F := Ideal) x0 x1 x2) hs)
        transposes_S256x16x64_p1_0_2_S16x256x64) shapeCasts_S16x256x64_S1x16x256x64 (ix4 u h r d)
      = (∑ e : Fin 1024, x0 (ix2 r e) * x1 (ix2 e col)) + x2 (ix2 (0 : Fin 1) col) :=
  (head_group_apply off _ hs u h r d (⟨off + d.val, by omega⟩ : Fin 192) rfl).trans
    (pay1_apply x0 x1 x2 r h _ col (by show col.val = h.val * 192 + (off + d.val); omega))

theorem pay2_apply (x0 : Vec Ideal S256x1024 .bf16) (x1 : Vec Ideal S1024x3072 .bf16) (x2 : Vec Ideal S1x3072 .f32)
    (u : Fin 1) (h : Fin 16) (r : Fin 256) (d : Fin 64) (col : Fin 3072) (hcol : col.val = h.val * 192 + 0 + d.val) :
    k0_pay2 (F := Ideal) x0 x1 x2 (ix4 u h r d) = (∑ e : Fin 1024, x0 (ix2 r e) * x1 (ix2 e col)) + x2 (ix2 (0 : Fin 1) col) := by
  unfold k0_pay2
  exact pay_group_apply 0 slices_S256x16x192_o0_0_0_S256x16x64 (by norm_num) x0 x1 x2 u h r d col hcol

theorem pay3_apply (x0 : Vec Ideal S256x1024 .bf16) (x1 : Vec Ideal S1024x3072 .bf16) (x2 : Vec Ideal S1x3072 .f32)
    (u : Fin 1) (h : Fin 16) (r : Fin 256) (d : Fin 64) (col : Fin 3072) (hcol : col.val = h.val * 192 + 64 + d.val) :
    k0_pay3 (F := Ideal) x0 x1 x2 (ix4 u h r d) = (∑ e : Fin 1024, x0 (ix2 r e) * x1 (ix2 e col)) + x2 (ix2 (0 : Fin 1) col) := by
  unfold k0_pay3
  exact pay_group_apply 64 slices_S256x16x192_o0_0_64_S256x16x64 (by norm_num) x0 x1 x2 u h r d col hcol

theorem pay4_apply (x0 : Vec Ideal S256x1024 .bf16) (x1 : Vec Ideal S1024x3072 .bf16) (x2 : Vec Ideal S1x3072 .f32)
    (u : Fin 1) (h : Fin 16) (r : Fin 256) (d : Fin 64) (col : Fin 3072) (hcol : col.val = h.val * 192 + 128 + d.val) :
    k0_pay4 (F := Ideal) x0 x1 x2 (ix4 u h r d) = (∑ e : Fin 1024, x0 (ix2 r e) * x1 (ix2 e col)) + x2 (ix2 (0 : Fin 1) col) := by
  unfold k0_pay4
  exact pay_group_apply 128 slices_S256x16x192_o0_0_128_S256x16x64 (by norm_num) x0 x1 x2 u h r d col hcol

/-! ## A stored entry is the projection's entry under it -/

/-- Point `n` holds rows `256 n …` of the flattened input, the whole weights and the bias; its stored entry (u, h, r, d) lies under
    array index (n / 8, h, (n % 8) * 256 + r, d), and row (n / 8) * 2048 + (n % 8) * 256 + r is row 256 n + r. -/
theorem point_eq (off : Nat) (hoff : off + 64 ≤ 192)
    (pay : Vec Ideal S256x1024 .bf16 → Vec Ideal S1024x3072 .bf16 → Vec Ideal S1x3072 .f32 → FVec Ideal S1x16x256x64 .bf16)
    (hpay : ∀ (x0 : Vec Ideal S256x1024 .bf16) (x1 : Vec Ideal S1024x3072 .bf16) (x2 : Vec Ideal S1x3072 .f32)
      (u : Fin 1) (h : Fin 16) (r : Fin 256) (d : Fin 64) (col : Fin 3072), col.val = h.val * 192 + off + d.val →
      pay x0 x1 x2 (ix4 u h r d) = (∑ e : Fin 1024, x0 (ix2 r e) * x1 (ix2 e col)) + x2 (ix2 (0 : Fin 1) col))
    (x0 : Vec Ideal S256x1024 .bf16) (x1 : Vec Ideal S1024x3072 .bf16) (x2 : Vec Ideal S1x3072 .f32) (xf : A2) (W : AW) (bias : AB)
    (n : Nat)
    (hx0 : ∀ (r : Fin 256) (e : Fin 1024) (row : Fin 8192), row.val = n * 256 + r.val → x0 (ix2 r e) = xf (ix2 row e))
    (hx1 : ∀ (e : Fin 1024) (col : Fin 3072), x1 (ix2 e col) = W (ix2 e col))
    (hx2 : ∀ col : Fin 3072, x2 (ix2 (0 : Fin 1) col) = bias (ix2 (0 : Fin 1) col))
    (j : S1x16x256x64.Idx) (i : S4x16x2048x64.Idx)
    (hi0 : (i 0).val = n / 8) (hi1 : (i 1).val = (j 1).val) (hi2 : (i 2).val = n % 8 * 256 + (j 2).val) (hi3 : (i 3).val = (j 3).val) :
    pay x0 x1 x2 j = proj off hoff xf W bias i := by
  obtain ⟨u, h, r, d, rfl⟩ : ∃ (u : Fin 1) (h : Fin 16) (r : Fin 256) (d : Fin 64), j = ix4 u h r d := ⟨j 0, j 1, j 2, j 3, eq_ix4 j⟩
  have hi1' : (i 1).val = h.val := hi1
  have hi2' : (i 2).val = n % 8 * 256 + r.val := hi2
  have hi3' : (i 3).val = d.val := hi3
  have hcolb : (i 1).val * 192 + off + (i 3).val < 3072 := by omega
  unfold proj projAt
  refine (hpay x0 x1 x2 u h r d ⟨(i 1).val * 192 + off + (i 3).val, hcolb⟩ (by show (i 1).val * 192 + off + (i 3).val = _; omega)).trans ?_
  exact congrArg₂ (· + ·) (Finset.sum_congr rfl fun e _ => congrArg₂ (· * ·) (hx0 r e _ (by show (i 0).val * 2048 + (i 2).val = _; omega)) (hx1 e _)) (hx2 _)

/-! ## From blocks to the arrays -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The index maps over the grid: point `t` reads row block `t` of the input, the whole weights and bias, and writes block
    (t / 8, 0, t % 8, 0) of each result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val / 8 ∧ win0_3.index t (1 : Fin 4) = 0 ∧ win0_3.index t (2 : Fin 4) = t.val % 8 ∧ win0_3.index t (3 : Fin 4) = 0
    ∧ win0_4.index t (0 : Fin 4) = t.val / 8 ∧ win0_4.index t (1 : Fin 4) = 0 ∧ win0_4.index t (2 : Fin 4) = t.val % 8 ∧ win0_4.index t (3 : Fin 4) = 0
    ∧ win0_5.index t (0 : Fin 4) = t.val / 8 ∧ win0_5.index t (1 : Fin 4) = 0 ∧ win0_5.index t (2 : Fin 4) = t.val % 8 ∧ win0_5.index t (3 : Fin 4) = 0 :=
  (by decide +kernel : ∀ t : Fin grid0.N, _)

/-! ## The input blocks of a point -/

/-- Point `t`'s input block is rows `256 t …` of the flattened input. -/
theorem blk0_read (c : Dev nD) (t : Fin cfg0.N) (r : Fin 256) (e : Fin 1024) (row : Fin 8192) (hrow : row.val = t.val * 256 + r.val) :
    (iblk0 V c 0 t : Vec Ideal S256x1024 .bf16) (ix2 r e) = (V c main_v1 : A2) (ix2 row e) := by
  obtain ⟨e00, e01, -⟩ := idx_facts t
  show V c main_v1 (((cfg0.win 0).blk t).view.emb (ix2 r e)) = V c main_v1 (ix2 row e)
  refine congrArg _ (funext fun a => Fin.ext ?_)
  match a with
  | ⟨0, _⟩ => show win0_0.index t (0 : Fin 2) * 256 + 1 * r.val = row.val; omega
  | ⟨1, _⟩ => show win0_0.index t (1 : Fin 2) * 1024 + 1 * e.val = e.val; omega

/-- Every point's weight block is the whole weight matrix. -/
theorem blk1_read (c : Dev nD) (t : Fin cfg0.N) (e : Fin 1024) (col : Fin 3072) :
    (iblk0 V c 1 t : Vec Ideal S1024x3072 .bf16) (ix2 e col) = (V c main_v2 : AW) (ix2 e col) := by
  obtain ⟨-, -, e10, e11, -⟩ := idx_facts t
  show V c main_v2 (((cfg0.win 1).blk t).view.emb (ix2 e col)) = V c main_v2 (ix2 e col)
  refine congrArg _ (funext fun a => Fin.ext ?_)
  match a with
  | ⟨0, _⟩ => show win0_1.index t (0 : Fin 2) * 1024 + 1 * e.val = e.val; omega
  | ⟨1, _⟩ => show win0_1.index t (1 : Fin 2) * 3072 + 1 * col.val = col.val; omega

/-- Every point's bias block is the whole bias row. -/
theorem blk2_read (c : Dev nD) (t : Fin cfg0.N) (col : Fin 3072) :
    (iblk0 V c 2 t : Vec Ideal S1x3072 .f32) (ix2 (0 : Fin 1) col) = (V c main_v3 : AB) (ix2 (0 : Fin 1) col) := by
  obtain ⟨-, -, -, -, e20, e21, -⟩ := idx_facts t
  show V c main_v3 (((cfg0.win 2).blk t).view.emb (ix2 (0 : Fin 1) col)) = V c main_v3 (ix2 (0 : Fin 1) col)
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * col.val = col.val; omega

/-- What point `t` writes back to the query array is its block of the projection at offset 0. -/
theorem flushed_q (c : Dev nD) (t : Fin cfg0.N) :
    (dat0 V c).flushed 3 t = ((cfg0.win 3).blk t).view.read (Elt Ideal) (proj 0 (by norm_num) (V c main_v1) (V c main_v2) (V c main_v3)) := by
  show (cfg0.win 3).cut (grid0.coords t) ((dat0 V c).after 3 t) = _
  rw [after0_3]
  unfold out0_3
  rw [View.canon_unit_zero hz4]
  simp only [View.ld_unit_zero (S := S256x1024) hz2, View.ld_unit_zero (S := S1024x3072) hz2, View.ld_unit_zero (S := S1x3072) hz2]
  funext j
  obtain ⟨-, -, -, -, -, -, e0, e1, e2, e3, -⟩ := idx_facts t
  show k0_pay2 (iblk0 V c 0 t) (iblk0 V c 1 t) (iblk0 V c 2 t) j
    = proj 0 (by norm_num) (V c main_v1) (V c main_v2) (V c main_v3) (((cfg0.win 3).blk t).view.emb j)
  refine point_eq 0 (by norm_num) (k0_pay2 (F := Ideal)) pay2_apply (iblk0 V c 0 t) (iblk0 V c 1 t) (iblk0 V c 2 t)
    (V c main_v1) (V c main_v2) (V c main_v3) t.val (blk0_read V c t) (blk1_read V c t) (blk2_read V c t)
    j (((cfg0.win 3).blk t).view.emb j) ?_ ?_ ?_ ?_
  · show win0_3.index t (0 : Fin 4) * 1 + 1 * (j 0).val = t.val / 8
    have hj : (j 0).val < 1 := (j 0).isLt
    omega
  · show win0_3.index t (1 : Fin 4) * 16 + 1 * (j 1).val = (j 1).val
    omega
  · show win0_3.index t (2 : Fin 4) * 256 + 1 * (j 2).val = t.val % 8 * 256 + (j 2).val
    omega
  · show win0_3.index t (3 : Fin 4) * 64 + 1 * (j 3).val = (j 3).val
    omega

/-- What point `t` writes back to the key array is its block of the projection at offset 64. -/
theorem flushed_k (c : Dev nD) (t : Fin cfg0.N) :
    (dat0 V c).flushed 4 t = ((cfg0.win 4).blk t).view.read (Elt Ideal) (proj 64 (by norm_num) (V c main_v1) (V c main_v2) (V c main_v3)) := by
  show (cfg0.win 4).cut (grid0.coords t) ((dat0 V c).after 4 t) = _
  rw [after0_4]
  unfold out0_4
  rw [View.canon_unit_zero hz4]
  simp only [View.ld_unit_zero (S := S256x1024) hz2, View.ld_unit_zero (S := S1024x3072) hz2, View.ld_unit_zero (S := S1x3072) hz2]
  funext j
  obtain ⟨-, -, -, -, -, -, -, -, -, -, e0, e1, e2, e3, -⟩ := idx_facts t
  show k0_pay3 (iblk0 V c 0 t) (iblk0 V c 1 t) (iblk0 V c 2 t) j
    = proj 64 (by norm_num) (V c main_v1) (V c main_v2) (V c main_v3) (((cfg0.win 4).blk t).view.emb j)
  refine point_eq 64 (by norm_num) (k0_pay3 (F := Ideal)) pay3_apply (iblk0 V c 0 t) (iblk0 V c 1 t) (iblk0 V c 2 t)
    (V c main_v1) (V c main_v2) (V c main_v3) t.val (blk0_read V c t) (blk1_read V c t) (blk2_read V c t)
    j (((cfg0.win 4).blk t).view.emb j) ?_ ?_ ?_ ?_
  · show win0_4.index t (0 : Fin 4) * 1 + 1 * (j 0).val = t.val / 8
    have hj : (j 0).val < 1 := (j 0).isLt
    omega
  · show win0_4.index t (1 : Fin 4) * 16 + 1 * (j 1).val = (j 1).val
    omega
  · show win0_4.index t (2 : Fin 4) * 256 + 1 * (j 2).val = t.val % 8 * 256 + (j 2).val
    omega
  · show win0_4.index t (3 : Fin 4) * 64 + 1 * (j 3).val = (j 3).val
    omega

/-- What point `t` writes back to the value array is its block of the projection at offset 128. -/
theorem flushed_v (c : Dev nD) (t : Fin cfg0.N) :
    (dat0 V c).flushed 5 t = ((cfg0.win 5).blk t).view.read (Elt Ideal) (proj 128 (by norm_num) (V c main_v1) (V c main_v2) (V c main_v3)) := by
  show (cfg0.win 5).cut (grid0.coords t) ((dat0 V c).after 5 t) = _
  rw [after0_5]
  unfold out0_5
  rw [View.canon_unit_zero hz4]
  simp only [View.ld_unit_zero (S := S256x1024) hz2, View.ld_unit_zero (S := S1024x3072) hz2, View.ld_unit_zero (S := S1x3072) hz2]
  funext j
  obtain ⟨-, -, -, -, -, -, -, -, -, -, -, -, -, -, e0, e1, e2, e3⟩ := idx_facts t
  show k0_pay4 (iblk0 V c 0 t) (iblk0 V c 1 t) (iblk0 V c 2 t) j
    = proj 128 (by norm_num) (V c main_v1) (V c main_v2) (V c main_v3) (((cfg0.win 5).blk t).view.emb j)
  refine point_eq 128 (by norm_num) (k0_pay4 (F := Ideal)) pay4_apply (iblk0 V c 0 t) (iblk0 V c 1 t) (iblk0 V c 2 t)
    (V c main_v1) (V c main_v2) (V c main_v3) t.val (blk0_read V c t) (blk1_read V c t) (blk2_read V c t)
    j (((cfg0.win 5).blk t).view.emb j) ?_ ?_ ?_ ?_
  · show win0_5.index t (0 : Fin 4) * 1 + 1 * (j 0).val = t.val / 8
    have hj : (j 0).val < 1 := (j 0).isLt
    omega
  · show win0_5.index t (1 : Fin 4) * 16 + 1 * (j 1).val = (j 1).val
    omega
  · show win0_5.index t (2 : Fin 4) * 256 + 1 * (j 2).val = t.val % 8 * 256 + (j 2).val
    omega
  · show win0_5.index t (3 : Fin 4) * 64 + 1 * (j 3).val = (j 3).val
    omega

/-! ## The blocks cover the arrays -/

/-- Index (b, h, s, d) lies in the block at block index (n / 8, 0, n % 8, 0) for n = b * 8 + s / 256. -/
theorem cover_arith (i : S4x16x2048x64.Idx) (idx : Fin 4 → Nat) (n : Nat) (hn : n = (i 0).val * 8 + (i 2).val / 256)
    (e0 : idx 0 = n / 8) (e1 : idx 1 = 0) (e2 : idx 2 = n % 8) (e3 : idx 3 = 0) (a : Fin 4) :
    idx a * S1x16x256x64.size a ≤ (i a).val ∧ (i a).val < idx a * S1x16x256x64.size a + S1x16x256x64.size a := by
  have h0 : (i 0).val < 4 := (i 0).isLt
  have h1 : (i 1).val < 16 := (i 1).isLt
  have h2 : (i 2).val < 2048 := (i 2).isLt
  have h3 : (i 3).val < 64 := (i 3).isLt
  match a with
  | ⟨0, _⟩ => show idx 0 * 1 ≤ (i 0).val ∧ (i 0).val < idx 0 * 1 + 1; omega
  | ⟨1, _⟩ => show idx 1 * 16 ≤ (i 1).val ∧ (i 1).val < idx 1 * 16 + 16; omega
  | ⟨2, _⟩ => show idx 2 * 256 ≤ (i 2).val ∧ (i 2).val < idx 2 * 256 + 256; omega
  | ⟨3, _⟩ => show idx 3 * 64 ≤ (i 3).val ∧ (i 3).val < idx 3 * 64 + 64; omega

/-- The point whose blocks hold index (b, h, s, d). -/
theorem point_of (i : S4x16x2048x64.Idx) : ∃ t : Fin cfg0.N, t.val = (i 0).val * 8 + (i 2).val / 256 := by
  have h0 : (i 0).val < 4 := (i 0).isLt
  have h2 : (i 2).val < 2048 := (i 2).isLt
  exact ⟨⟨(i 0).val * 8 + (i 2).val / 256, by rw [show cfg0.N = 32 from N_0]; omega⟩, rfl⟩

/-- An index of the query array is in point `t`'s block iff each coordinate is in the block's range on its axis. -/
theorem mem_blk_q (t : Fin cfg0.N) (i : S4x16x2048x64.Idx) :
    i ∈ ((cfg0.win 3).blk t).view.set ↔ ∀ a : Fin 4, win0_3.index t a * S1x16x256x64.size a ≤ (i a).val ∧ (i a).val < win0_3.index t a * S1x16x256x64.size a + S1x16x256x64.size a := by
  show i ∈ ((View.whole main_v4_0).slice (win0_3.rect t)).set ↔ _
  rw [View.set_slice_whole, Rect.mem_set_unit]
  exact Iff.rfl

theorem cover_q (i : S4x16x2048x64.Idx) : ∃ t : Fin cfg0.N, (cfg0.win 3).flush t = true ∧ i ∈ ((cfg0.win 3).blk t).view.set := by
  obtain ⟨t, ht⟩ := point_of i
  obtain ⟨-, -, -, -, -, -, e0, e1, e2, e3, -⟩ := idx_facts t
  refine ⟨t, flush0_3 t, ?_⟩
  rw [mem_blk_q]
  exact cover_arith i (win0_3.index t) t.val ht e0 e1 e2 e3

/-- An index of the key array is in point `t`'s block iff each coordinate is in the block's range on its axis. -/
theorem mem_blk_k (t : Fin cfg0.N) (i : S4x16x2048x64.Idx) :
    i ∈ ((cfg0.win 4).blk t).view.set ↔ ∀ a : Fin 4, win0_4.index t a * S1x16x256x64.size a ≤ (i a).val ∧ (i a).val < win0_4.index t a * S1x16x256x64.size a + S1x16x256x64.size a := by
  show i ∈ ((View.whole main_v4_1).slice (win0_4.rect t)).set ↔ _
  rw [View.set_slice_whole, Rect.mem_set_unit]
  exact Iff.rfl

theorem cover_k (i : S4x16x2048x64.Idx) : ∃ t : Fin cfg0.N, (cfg0.win 4).flush t = true ∧ i ∈ ((cfg0.win 4).blk t).view.set := by
  obtain ⟨t, ht⟩ := point_of i
  obtain ⟨-, -, -, -, -, -, -, -, -, -, e0, e1, e2, e3, -⟩ := idx_facts t
  refine ⟨t, flush0_4 t, ?_⟩
  rw [mem_blk_k]
  exact cover_arith i (win0_4.index t) t.val ht e0 e1 e2 e3

/-- An index of the value array is in point `t`'s block iff each coordinate is in the block's range on its axis. -/
theorem mem_blk_v (t : Fin cfg0.N) (i : S4x16x2048x64.Idx) :
    i ∈ ((cfg0.win 5).blk t).view.set ↔ ∀ a : Fin 4, win0_5.index t a * S1x16x256x64.size a ≤ (i a).val ∧ (i a).val < win0_5.index t a * S1x16x256x64.size a + S1x16x256x64.size a := by
  show i ∈ ((View.whole main_v4_2).slice (win0_5.rect t)).set ↔ _
  rw [View.set_slice_whole, Rect.mem_set_unit]
  exact Iff.rfl

theorem cover_v (i : S4x16x2048x64.Idx) : ∃ t : Fin cfg0.N, (cfg0.win 5).flush t = true ∧ i ∈ ((cfg0.win 5).blk t).view.set := by
  obtain ⟨t, ht⟩ := point_of i
  obtain ⟨-, -, -, -, -, -, -, -, -, -, -, -, -, -, e0, e1, e2, e3⟩ := idx_facts t
  refine ⟨t, flush0_5 t, ?_⟩
  rw [mem_blk_v]
  exact cover_arith i (win0_5.index t) t.val ht e0 e1 e2 e3

end Qkv

/-- The query array after the region. -/
theorem qkv_q (c : Dev nD) :
    ((dat0 V c).arrAt 3 cfg0.N : S4x16x2048x64.Idx → EReal) = proj 0 (by norm_num) (V c main_v1) (V c main_v2) (V c main_v3) :=
  (dat0 V c).arrAt_eq_of_cover 3 (proj 0 (by norm_num) (V c main_v1) (V c main_v2) (V c main_v3)) (fun t _ => Qkv.flushed_q V c t) Qkv.cover_q

/-- The key array after the region. -/
theorem qkv_k (c : Dev nD) :
    ((dat0 V c).arrAt 4 cfg0.N : S4x16x2048x64.Idx → EReal) = proj 64 (by norm_num) (V c main_v1) (V c main_v2) (V c main_v3) :=
  (dat0 V c).arrAt_eq_of_cover 4 (proj 64 (by norm_num) (V c main_v1) (V c main_v2) (V c main_v3)) (fun t _ => Qkv.flushed_k V c t) Qkv.cover_k

/-- The value array after the region. -/
theorem qkv_v (c : Dev nD) :
    ((dat0 V c).arrAt 5 cfg0.N : S4x16x2048x64.Idx → EReal) = proj 128 (by norm_num) (V c main_v1) (V c main_v2) (V c main_v3) :=
  (dat0 V c).arrAt_eq_of_cover 5 (proj 128 (by norm_num) (V c main_v1) (V c main_v2) (V c main_v3)) (fun t _ => Qkv.flushed_v V c t) Qkv.cover_v

end Cert.KernelIdeal.Hand

end
-- ==== Proof.AttnValueAux1.lean ====
/-
  One grid point's arithmetic, read entry by entry. The point holds 256 query rows of two heads (q), all 2048 key rows (k)
  and value rows (v) of those heads, and 256 rows of the additive mask (mk). For head hd, row r and key position t the
  score is (sum over the 64 features of q * k) * 0.125 + mask; a row of scores is shifted by its maximum, exponentiated
  and divided by the row's sum; the weights are applied to the values. The two heads' 64 columns each are laid side by
  side, so column e of the 128 belongs to head e / 64, feature e % 64.
-/
import proofs.«428168_j50998441673227_3_alg».proof.Proof.Gen.KernelIdeal.Skeleton
import proofs.«428168_j50998441673227_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.KernelIdeal.Hand.Attn

open Cert.KernelIdeal Cert.KernelIdeal.Gen Cert.Attention

/-! ## The block's mathematics -/

/-- The score of row r against key position t in head hd of the block. -/
def bscore (q : FVec Ideal S1x2x256x64 .bf16) (k : FVec Ideal S1x2x2048x64 .bf16) (mk : FVec Ideal S256x2048 .f32)
    (hd : Fin 2) (r : Fin 256) (t : Fin 2048) : EReal :=
  (∑ d : Fin 64, q (ix4 (0 : Fin 1) hd r d) * k (ix4 (0 : Fin 1) hd t d)) * scale + mk (ix2 r t)

/-- The maximum of a row of scores. -/
def bmax (q : FVec Ideal S1x2x256x64 .bf16) (k : FVec Ideal S1x2x2048x64 .bf16) (mk : FVec Ideal S256x2048 .f32)
    (hd : Fin 2) (r : Fin 256) : EReal :=
  (Finset.univ : Finset (Fin 2048)).fold max ninf (bscore q k mk hd r)

/-- The shifted exponential of a score. -/
def bnum (q : FVec Ideal S1x2x256x64 .bf16) (k : FVec Ideal S1x2x2048x64 .bf16) (mk : FVec Ideal S256x2048 .f32)
    (hd : Fin 2) (r : Fin 256) (t : Fin 2048) : EReal :=
  Ideal.exp (bscore q k mk hd r t - bmax q k mk hd r)

/-- The softmax weight of key position t. -/
def bweight (q : FVec Ideal S1x2x256x64 .bf16) (k : FVec Ideal S1x2x2048x64 .bf16) (mk : FVec Ideal S256x2048 .f32)
    (hd : Fin 2) (r : Fin 256) (t : Fin 2048) : EReal :=
  Ideal.div (bnum q k mk hd r t) (∑ t' : Fin 2048, bnum q k mk hd r t')

/-- Feature d of head hd's output at row r. -/
def bout (q : FVec Ideal S1x2x256x64 .bf16) (k v : FVec Ideal S1x2x2048x64 .bf16) (mk : FVec Ideal S256x2048 .f32)
    (hd : Fin 2) (r : Fin 256) (d : Fin 64) : EReal :=
  ∑ t : Fin 2048, bweight q k mk hd r t * v (ix4 (0 : Fin 1) hd t d)

/-! ## The two products -/

/-- Scores: [2,256,64] x [2,2048,64] -> [2,256,2048], batch axis 0, contracting the features. -/
abbrev dQK : DotDims S2x256x64 S2x2048x64 S2x256x2048 := dot_S2x256x64_S2x2048x64_S2x256x2048_2_2_1_1_0_0
/-- Weighted values: [2,256,2048] x [2,2048,64] -> [2,256,64], batch axis 0, contracting the key positions. -/
abbrev dPV : DotDims S2x256x2048 S2x2048x64 S2x256x64 := dot_S2x256x2048_S2x2048x64_S2x256x64_2_1_1_2_0_0

theorem qk_lhs_0 (i : S2x256x2048.Idx) (c : dot_S2x256x64_S2x2048x64_S2x256x2048_2_2_1_1_0_0.contr.Idx) :
    (dot_S2x256x64_S2x2048x64_S2x256x2048_2_2_1_1_0_0.lhsIdx i c 0).val = (i 0).val := by
  unfold DotDims.lhsIdx
  rw [dif_pos (show (0 : Fin S2x256x64.rank) ∈ dot_S2x256x64_S2x2048x64_S2x256x2048_2_2_1_1_0_0.lhsBatch by decide)]
  rfl
theorem qk_lhs_1 (i : S2x256x2048.Idx) (c : dot_S2x256x64_S2x2048x64_S2x256x2048_2_2_1_1_0_0.contr.Idx) :
    (dot_S2x256x64_S2x2048x64_S2x256x2048_2_2_1_1_0_0.lhsIdx i c 1).val = (i 1).val := by
  unfold DotDims.lhsIdx
  rw [dif_neg (show ¬(1 : Fin S2x256x64.rank) ∈ dot_S2x256x64_S2x2048x64_S2x256x2048_2_2_1_1_0_0.lhsBatch by decide),
    dif_pos (show (1 : Fin S2x256x64.rank) ∈ dot_S2x256x64_S2x2048x64_S2x256x2048_2_2_1_1_0_0.lhsNonContracting by decide)]
  rfl
theorem qk_lhs_2 (i : S2x256x2048.Idx) (c : dot_S2x256x64_S2x2048x64_S2x256x2048_2_2_1_1_0_0.contr.Idx) :
    (dot_S2x256x64_S2x2048x64_S2x256x2048_2_2_1_1_0_0.lhsIdx i c 2).val = (c ⟨0, by decide⟩).val :=
  dot_S2x256x64_S2x2048x64_S2x256x2048_2_2_1_1_0_0.lhsIdx_val_of_single rfl i c
theorem qk_rhs_0 (i : S2x256x2048.Idx) (c : dot_S2x256x64_S2x2048x64_S2x256x2048_2_2_1_1_0_0.contr.Idx) :
    (dot_S2x256x64_S2x2048x64_S2x256x2048_2_2_1_1_0_0.rhsIdx i c 0).val = (i 0).val := by
  unfold DotDims.rhsIdx
  rw [dif_pos (show (0 : Fin S2x2048x64.rank) ∈ dot_S2x256x64_S2x2048x64_S2x256x2048_2_2_1_1_0_0.rhsBatch by decide)]
  rfl
theorem qk_rhs_1 (i : S2x256x2048.Idx) (c : dot_S2x256x64_S2x2048x64_S2x256x2048_2_2_1_1_0_0.contr.Idx) :
    (dot_S2x256x64_S2x2048x64_S2x256x2048_2_2_1_1_0_0.rhsIdx i c 1).val = (i 2).val := by
  unfold DotDims.rhsIdx
  rw [dif_neg (show ¬(1 : Fin S2x2048x64.rank) ∈ dot_S2x256x64_S2x2048x64_S2x256x2048_2_2_1_1_0_0.rhsBatch by decide),
    dif_pos (show (1 : Fin S2x2048x64.rank) ∈ dot_S2x256x64_S2x2048x64_S2x256x2048_2_2_1_1_0_0.rhsNonContracting by decide)]
  rfl
theorem qk_rhs_2 (i : S2x256x2048.Idx) (c : dot_S2x256x64_S2x2048x64_S2x256x2048_2_2_1_1_0_0.contr.Idx) :
    (dot_S2x256x64_S2x2048x64_S2x256x2048_2_2_1_1_0_0.rhsIdx i c 2).val = (c ⟨0, by decide⟩).val :=
  dot_S2x256x64_S2x2048x64_S2x256x2048_2_2_1_1_0_0.rhsIdx_val_of_single rfl i c

/-- The scores' product at (hd, r, t): the sum over the 64 features of the query row times the key row. -/
theorem matmul_qk_apply (x : FVec Ideal S2x256x64 .bf16) (y : FVec Ideal S2x2048x64 .bf16) (hd : Fin 2) (r : Fin 256) (t : Fin 2048) :
    matmul dQK none x y (constant S2x256x2048 .f32 0x00000000#32) (ix3 hd r t)
      = ∑ d : Fin 64, x (ix3 hd r d) * y (ix3 hd t d) := by
  refine (Ideal.matmul_constant_zero_apply dQK none x y (ix3 hd r t)).trans ?_
  rw [← Equiv.sum_comp (ValueIdx.contrEquiv1 dQK 64 rfl rfl).symm]
  refine Finset.sum_congr rfl fun d _ => ?_
  have hk := ValueIdx.contrEquiv1_symm_val dQK 64 rfl rfl d
  have el : dQK.lhsIdx (ix3 hd r t) ((ValueIdx.contrEquiv1 dQK 64 rfl rfl).symm d) = ix3 hd r d := funext fun a => Fin.ext (by
    match a with
    | ⟨0, _⟩ => exact qk_lhs_0 _ _
    | ⟨1, _⟩ => exact qk_lhs_1 _ _
    | ⟨2, _⟩ => exact (qk_lhs_2 _ _).trans hk)
  have er : dQK.rhsIdx (ix3 hd r t) ((ValueIdx.contrEquiv1 dQK 64 rfl rfl).symm d) = ix3 hd t d := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem pv_lhs_0 (i : S2x256x64.Idx) (c : dot_S2x256x2048_S2x2048x64_S2x256x64_2_1_1_2_0_0.contr.Idx) :
    (dot_S2x256x2048_S2x2048x64_S2x256x64_2_1_1_2_0_0.lhsIdx i c 0).val = (i 0).val := by
  unfold DotDims.lhsIdx
  rw [dif_pos (show (0 : Fin S2x256x2048.rank) ∈ dot_S2x256x2048_S2x2048x64_S2x256x64_2_1_1_2_0_0.lhsBatch by decide)]
  rfl
theorem pv_lhs_1 (i : S2x256x64.Idx) (c : dot_S2x256x2048_S2x2048x64_S2x256x64_2_1_1_2_0_0.contr.Idx) :
    (dot_S2x256x2048_S2x2048x64_S2x256x64_2_1_1_2_0_0.lhsIdx i c 1).val = (i 1).val := by
  unfold DotDims.lhsIdx
  rw [dif_neg (show ¬(1 : Fin S2x256x2048.rank) ∈ dot_S2x256x2048_S2x2048x64_S2x256x64_2_1_1_2_0_0.lhsBatch by decide),
    dif_pos (show (1 : Fin S2x256x2048.rank) ∈ dot_S2x256x2048_S2x2048x64_S2x256x64_2_1_1_2_0_0.lhsNonContracting by decide)]
  rfl
theorem pv_lhs_2 (i : S2x256x64.Idx) (c : dot_S2x256x2048_S2x2048x64_S2x256x64_2_1_1_2_0_0.contr.Idx) :
    (dot_S2x256x2048_S2x2048x64_S2x256x64_2_1_1_2_0_0.lhsIdx i c 2).val = (c ⟨0, by decide⟩).val :=
  dot_S2x256x2048_S2x2048x64_S2x256x64_2_1_1_2_0_0.lhsIdx_val_of_single rfl i c
theorem pv_rhs_0 (i : S2x256x64.Idx) (c : dot_S2x256x2048_S2x2048x64_S2x256x64_2_1_1_2_0_0.contr.Idx) :
    (dot_S2x256x2048_S2x2048x64_S2x256x64_2_1_1_2_0_0.rhsIdx i c 0).val = (i 0).val := by
  unfold DotDims.rhsIdx
  rw [dif_pos (show (0 : Fin S2x2048x64.rank) ∈ dot_S2x256x2048_S2x2048x64_S2x256x64_2_1_1_2_0_0.rhsBatch by decide)]
  rfl
theorem pv_rhs_1 (i : S2x256x64.Idx) (c : dot_S2x256x2048_S2x2048x64_S2x256x64_2_1_1_2_0_0.contr.Idx) :
    (dot_S2x256x2048_S2x2048x64_S2x256x64_2_1_1_2_0_0.rhsIdx i c 1).val = (c ⟨0, by decide⟩).val :=
  dot_S2x256x2048_S2x2048x64_S2x256x64_2_1_1_2_0_0.rhsIdx_val_of_single rfl i c
theorem pv_rhs_2 (i : S2x256x64.Idx) (c : dot_S2x256x2048_S2x2048x64_S2x256x64_2_1_1_2_0_0.contr.Idx) :
    (dot_S2x256x2048_S2x2048x64_S2x256x64_2_1_1_2_0_0.rhsIdx i c 2).val = (i 2).val := by
  unfold DotDims.rhsIdx
  rw [dif_neg (show ¬(2 : Fin S2x2048x64.rank) ∈ dot_S2x256x2048_S2x2048x64_S2x256x64_2_1_1_2_0_0.rhsBatch by decide),
    dif_pos (show (2 : Fin S2x2048x64.rank) ∈ dot_S2x256x2048_S2x2048x64_S2x256x64_2_1_1_2_0_0.rhsNonContracting by decide)]
  rfl

/-- The weighted values' product at (hd, r, d): the sum over the 2048 key positions of weight times value. -/
theorem matmul_pv_apply (x : FVec Ideal S2x256x2048 .bf16) (y : FVec Ideal S2x2048x64 .bf16) (hd : Fin 2) (r : Fin 256) (d : Fin 64) :
    matmul dPV none x y (constant S2x256x64 .f32 0x00000000#32) (ix3 hd r d)
      = ∑ t : Fin 2048, x (ix3 hd r t) * y (ix3 hd t d) := by
  refine (Ideal.matmul_constant_zero_apply dPV none x y (ix3 hd r d)).trans ?_
  rw [← Equiv.sum_comp (ValueIdx.contrEquiv1 dPV 2048 rfl rfl).symm]
  refine Finset.sum_congr rfl fun t _ => ?_
  have hk := ValueIdx.contrEquiv1_symm_val dPV 2048 rfl rfl t
  have el : dPV.lhsIdx (ix3 hd r d) ((ValueIdx.contrEquiv1 dPV 2048 rfl rfl).symm t) = ix3 hd r t := funext fun a => Fin.ext (by
    match a with
    | ⟨0, _⟩ => exact pv_lhs_0 _ _
    | ⟨1, _⟩ => exact pv_lhs_1 _ _
    | ⟨2, _⟩ => exact (pv_lhs_2 _ _).trans hk)
  have er : dPV.rhsIdx (ix3 hd r d) ((ValueIdx.contrEquiv1 dPV 2048 rfl rfl).symm t) = ix3 hd t d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## Layout steps -/

/-- The mask rows, given a unit head axis and repeated for both heads, read the mask at (r, t) whatever the head. -/
theorem mask_both_heads_apply (mk : FVec Ideal S256x2048 .f32) (hd : Fin 2) (r : Fin 256) (t : Fin 2048) :
    broadcastTo S2x256x2048 (shapeCast S1x256x2048 mk shapeCasts_S256x2048_S1x256x2048) broadcasts_S1x256x2048_S2x256x2048 (ix3 hd r t)
      = mk (ix2 r t) := by
  refine (broadcastTo_apply _ broadcasts_S1x256x2048_S2x256x2048 (ix3 hd r t) (ix3 (0 : Fin 1) r t) fun a => ?_).trans ?_
  · match a with
    | ⟨0, _⟩ => rfl
    | ⟨1, _⟩ => rfl
    | ⟨2, _⟩ => rfl
  · exact shapeCast_ab_1ab_apply mk shapeCasts_S256x2048_S1x256x2048 (0 : Fin 1) r t

/-- A per-row value [2,256], given a unit last axis and repeated along the 2048 key positions, reads the row's value. -/
theorem row_value_along_keys_apply (m : FVec Ideal S2x256 .f32) (hd : Fin 2) (r : Fin 256) (t : Fin 2048) :
    broadcastTo S2x256x2048 (shapeCast S2x256x1 m shapeCasts_S2x256_S2x256x1) broadcasts_S2x256x1_S2x256x2048 (ix3 hd r t)
      = m (ix2 hd r) := by
  refine (broadcastTo_apply _ broadcasts_S2x256x1_S2x256x2048 (ix3 hd r t) (ix3 hd r (0 : Fin 1)) fun a => ?_).trans ?_
  · match a with
    | ⟨0, _⟩ => rfl
    | ⟨1, _⟩ => rfl
    | ⟨2, _⟩ => rfl
  · refine shapeCast_apply m shapeCasts_S2x256_S2x256x1 _ _ ?_
    rw [Shape.rowMajor_val_three, Shape.rowMajor_val_two]
    show hd.val * 256 + r.val = (hd.val * 256 + r.val) * 1 + 0
    omega

/-- The maximum over the key positions of a row, from the word of -inf. -/
theorem row_max_apply (x : FVec Ideal S2x256x2048 .f32) (hd : Fin 2) (r : Fin 256) :
    multiReduction .maximumf [2] S2x256 x 0xFF800000#32 reduces_S2x256x2048_S2x256 (.inl rfl) rfl (ix2 hd r)
      = (Finset.univ : Finset (Fin 2048)).fold max ninf (fun t => x (ix3 hd r t)) := by
  refine (Ideal.multiReduction_maximumf_single x 0xFF800000#32 reduces_S2x256x2048_S2x256 (.inl rfl) rfl (ix2 hd r)).trans ?_
  show (Finset.univ : Finset (Fin 2048)).fold max (Ideal.ofBits .f32 0xFF800000#32) _ = _
  unfold ninf
  refine congrArg ((Finset.univ : Finset (Fin 2048)).fold max (Ideal.ofBits .f32 0xFF800000#32)) (funext fun t => ?_)
  exact congrArg x (funext fun a => Fin.ext (by
    match a with
    | ⟨0, _⟩ => rfl
    | ⟨1, _⟩ => rfl
    | ⟨2, _⟩ => rfl))

/-- The sum over the key positions of a row. -/
theorem row_sum_apply (x : FVec Ideal S2x256x2048 .f32) (hd : Fin 2) (r : Fin 256) :
    multiReduction .add [2] S2x256 x 0x00000000#32 reduces_S2x256x2048_S2x256 (.inl rfl) rfl (ix2 hd r)
      = ∑ t : Fin 2048, x (ix3 hd r t) := by
  refine (Ideal.multiReduction_add_single x 0x00000000#32 reduces_S2x256x2048_S2x256 (.inl rfl) rfl (ix2 hd r)).trans ?_
  show ∑ t : Fin 2048, _ = _
  refine Finset.sum_congr rfl fun t _ => ?_
  exact congrArg x (funext fun a => Fin.ext (by
    match a with
    | ⟨0, _⟩ => rfl
    | ⟨1, _⟩ => rfl
    | ⟨2, _⟩ => rfl))

/-- The two heads' [256,64] results side by side: column e is head e / 64, feature e % 64. -/
theorem heads_side_by_side_apply (x : FVec Ideal S2x256x64 .f32) (r : Fin 256) (e : Fin 128) :
    concatenate S256x128 1
        [⟨S256x64, shapeCast S256x64 (extractStridedSlice S1x256x64 ![0, 0, 0] x slices_S2x256x64_o0_0_0_S1x256x64) shapeCasts_S1x256x64_S256x64⟩,
         ⟨S256x64, shapeCast S256x64 (extractStridedSlice S1x256x64 ![1, 0, 0] x slices_S2x256x64_o1_0_0_S1x256x64) shapeCasts_S1x256x64_S256x64⟩]
        concatenates_S256x64_S256x64_S256x128_d1 (ix2 r e)
      = x (ix3 (⟨e.val / 64, by omega⟩ : Fin 2) r (⟨e.val % 64, by omega⟩ : Fin 64)) := by
  by_cases he : e.val < 64
  · refine (concatenate_pair_apply_left (1 : Fin S256x128.rank) _ _ concatenates_S256x64_S256x64_S256x128_d1 (ix2 r e) rfl
      (ix2 r (⟨e.val, he⟩ : Fin 64)) fun b => ?_).trans ?_
    · match b with
      | ⟨0, _⟩ => rfl
      | ⟨1, _⟩ => rfl
    · refine (shapeCast_1ab_ab_apply _ shapeCasts_S1x256x64_S256x64 r (⟨e.val, he⟩ : Fin 64)).trans ?_
      refine extractStridedSlice_apply _ x slices_S2x256x64_o0_0_0_S1x256x64 _ _ fun a => ?_
      match a with
      | ⟨0, _⟩ => show e.val / 64 = 0 + 0; omega
      | ⟨1, _⟩ => show r.val = 0 + r.val; omega
      | ⟨2, _⟩ => show e.val % 64 = 0 + e.val; omega
  · have he' : e.val - 64 < 64 := by omega
    refine (concatenate_pair_apply_right (1 : Fin S256x128.rank) _ _ concatenates_S256x64_S256x64_S256x128_d1 (ix2 r e) rfl rfl
      (ix2 r (⟨e.val - 64, he'⟩ : Fin 64)) (fun b hb => ?_) ?_).trans ?_
    · match b with
      | ⟨0, _⟩ => rfl
      | ⟨1, _⟩ => exact absurd rfl hb
    · show e.val - 64 + 64 = e.val; omega
    · refine (shapeCast_1ab_ab_apply _ shapeCasts_S1x256x64_S256x64 r (⟨e.val - 64, he'⟩ : Fin 64)).trans ?_
      refine extractStridedSlice_apply _ x slices_S2x256x64_o1_0_0_S1x256x64 _ _ fun a => ?_
      match a with
      | ⟨0, _⟩ => show e.val / 64 = 1 + 0; omega
      | ⟨1, _⟩ => show r.val = 0 + r.val; omega
      | ⟨2, _⟩ => show e.val % 64 = 0 + (e.val - 64); omega

/-! ## The body's four stages, and the payload as their composition -/

/-- Scores: the queries times the keys, scaled, plus the mask rows. -/
def scoresV (q : FVec Ideal S1x2x256x64 .bf16) (k : FVec Ideal S1x2x2048x64 .bf16) (mk : FVec Ideal S256x2048 .f32) : FVec Ideal S2x256x2048 .f32 :=
  addf (mulf (matmul dQK none (shapeCast S2x256x64 q shapeCasts_S1x2x256x64_S2x256x64) (shapeCast S2x2048x64 k shapeCasts_S1x2x2048x64_S2x2048x64)
      (constant S2x256x2048 .f32 0x00000000#32)) (broadcast S2x256x2048 (Scalar.ofBits .f32 0x3E000000#32)))
    (broadcastTo S2x256x2048 (shapeCast S1x256x2048 mk shapeCasts_S256x2048_S1x256x2048) broadcasts_S1x256x2048_S2x256x2048)

/-- Shifted exponentials: each row less its maximum, exponentiated. -/
def numV (s : FVec Ideal S2x256x2048 .f32) : FVec Ideal S2x256x2048 .f32 :=
  exp (subf s (broadcastTo S2x256x2048 (shapeCast S2x256x1
    (multiReduction .maximumf [2] S2x256 s 0xFF800000#32 reduces_S2x256x2048_S2x256 (.inl rfl) rfl) shapeCasts_S2x256_S2x256x1) broadcasts_S2x256x1_S2x256x2048))

/-- Weights: each row divided by its sum. -/
def weightV (n : FVec Ideal S2x256x2048 .f32) : FVec Ideal S2x256x2048 .bf16 :=
  truncf .bf16 (divf n (broadcastTo S2x256x2048 (shapeCast S2x256x1
    (multiReduction .add [2] S2x256 n 0x00000000#32 reduces_S2x256x2048_S2x256 (.inl rfl) rfl) shapeCasts_S2x256_S2x256x1) broadcasts_S2x256x1_S2x256x2048)) bitsLt_bf16_f32

/-- The weights applied to the values, the two heads side by side, as a [1,256,128] block. -/
def outV (w : FVec Ideal S2x256x2048 .bf16) (v : FVec Ideal S1x2x2048x64 .bf16) : FVec Ideal S1x256x128 .f32 :=
  shapeCast S1x256x128 (concatenate S256x128 1
    [⟨S256x64, shapeCast S256x64 (extractStridedSlice S1x256x64 ![0, 0, 0]
        (matmul dPV none w (shapeCast S2x2048x64 v shapeCasts_S1x2x2048x64_S2x2048x64) (constant S2x256x64 .f32 0x00000000#32))
        slices_S2x256x64_o0_0_0_S1x256x64) shapeCasts_S1x256x64_S256x64⟩,
     ⟨S256x64, shapeCast S256x64 (extractStridedSlice S1x256x64 ![1, 0, 0]
        (matmul dPV none w (shapeCast S2x2048x64 v shapeCasts_S1x2x2048x64_S2x2048x64) (constant S2x256x64 .f32 0x00000000#32))
        slices_S2x256x64_o1_0_0_S1x256x64) shapeCasts_S1x256x64_S256x64⟩]
    concatenates_S256x64_S256x64_S256x128_d1) shapeCasts_S256x128_S1x256x128

/-- The body's arithmetic is the four stages in order. -/
theorem pay_eq_stages (q : FVec Ideal S1x2x256x64 .bf16) (k v : FVec Ideal S1x2x2048x64 .bf16) (mk : FVec Ideal S256x2048 .f32) :
    k1_pay1 (F := Ideal) q k v mk = outV (weightV (numV (scoresV q k mk))) v := rfl

theorem scoresV_apply (q : FVec Ideal S1x2x256x64 .bf16) (k : FVec Ideal S1x2x2048x64 .bf16) (mk : FVec Ideal S256x2048 .f32)
    (hd : Fin 2) (r : Fin 256) (t : Fin 2048) : scoresV q k mk (ix3 hd r t) = bscore q k mk hd r t := by
  unfold scoresV bscore scale
  refine congrArg₂ (· + ·) (congrArg (· * Ideal.ofBits .f32 0x3E000000#32) ?_) (mask_both_heads_apply mk hd r t)
  refine (matmul_qk_apply _ _ hd r t).trans (Finset.sum_congr rfl fun d _ => ?_)
  exact congrArg₂ (· * ·) (shapeCast_1abc_abc_apply q shapeCasts_S1x2x256x64_S2x256x64 hd r d)
    (shapeCast_1abc_abc_apply k shapeCasts_S1x2x2048x64_S2x2048x64 hd t d)

theorem numV_apply (s : FVec Ideal S2x256x2048 .f32) (hd : Fin 2) (r : Fin 256) (t : Fin 2048) :
    numV s (ix3 hd r t) = Ideal.exp (s (ix3 hd r t) - (Finset.univ : Finset (Fin 2048)).fold max ninf (fun t' => s (ix3 hd r t'))) := by
  unfold numV
  refine congrArg Ideal.exp (congrArg (s (ix3 hd r t) - ·) ?_)
  exact (row_value_along_keys_apply _ hd r t).trans (row_max_apply s hd r)

theorem weightV_apply (n : FVec Ideal S2x256x2048 .f32) (hd : Fin 2) (r : Fin 256) (t : Fin 2048) :
    weightV n (ix3 hd r t) = Ideal.div (n (ix3 hd r t)) (∑ t' : Fin 2048, n (ix3 hd r t')) := by
  unfold weightV
  refine congrArg (Ideal.div (n (ix3 hd r t))) ?_
  exact (row_value_along_keys_apply _ hd r t).trans (row_sum_apply n hd r)

theorem outV_apply (w : FVec Ideal S2x256x2048 .bf16) (v : FVec Ideal S1x2x2048x64 .bf16) (r : Fin 256) (e : Fin 128) :
    outV w v (ix3 (0 : Fin 1) r e)
      = ∑ t : Fin 2048, w (ix3 (⟨e.val / 64, by omega⟩ : Fin 2) r t) * v (ix4 (0 : Fin 1) (⟨e.val / 64, by omega⟩ : Fin 2) t (⟨e.val % 64, by omega⟩ : Fin 64)) := by
  unfold outV
  refine (shapeCast_ab_1ab_apply _ shapeCasts_S256x128_S1x256x128 (0 : Fin 1) r e).trans ?_
  refine (heads_side_by_side_apply _ r e).trans ?_
  refine (matmul_pv_apply _ _ _ r _).trans (Finset.sum_congr rfl fun t _ => ?_)
  exact congrArg (w _ * ·) (shapeCast_1abc_abc_apply v shapeCasts_S1x2x2048x64_S2x2048x64 _ t _)

/-- THE PAYLOAD AT AN ENTRY: row r, column e of the block is feature e % 64 of head e / 64's output at row r. -/
theorem pay_apply (q : FVec Ideal S1x2x256x64 .bf16) (k v : FVec Ideal S1x2x2048x64 .bf16) (mk : FVec Ideal S256x2048 .f32)
    (r : Fin 256) (e : Fin 128) :
    k1_pay1 (F := Ideal) q k v mk (ix3 (0 : Fin 1) r e)
      = bout q k v mk (⟨e.val / 64, by omega⟩ : Fin 2) r (⟨e.val % 64, by omega⟩ : Fin 64) := by
  rw [pay_eq_stages]
  refine (outV_apply _ v r e).trans ?_
  unfold bout
  refine Finset.sum_congr rfl fun t _ => congrArg (· * _) ?_
  have hn : ∀ t' : Fin 2048, numV (scoresV q k mk) (ix3 (⟨e.val / 64, by omega⟩ : Fin 2) r t') = bnum q k mk ⟨e.val / 64, by omega⟩ r t' := fun t' => by
    refine (numV_apply _ _ r t').trans ?_
    unfold bnum bmax
    refine congrArg Ideal.exp (congrArg₂ (· - ·) (scoresV_apply q k mk _ r t') ?_)
    exact congrArg ((Finset.univ : Finset (Fin 2048)).fold max ninf) (funext fun t'' => scoresV_apply q k mk _ r t'')
  refine (weightV_apply _ _ r t).trans ?_
  unfold bweight
  exact congrArg₂ Ideal.div (hn t) (Finset.sum_congr rfl fun t' _ => hn t')

/-! ## From the block to the whole arrays -/

/-- When the block's entries are the whole arrays' entries at batch b, head H, query position s (and every key position),
    the block's output at (hd, r, d) is the arrays' head output at (b, H, s, d). -/
theorem bout_eq_headOut (q : FVec Ideal S1x2x256x64 .bf16) (k v : FVec Ideal S1x2x2048x64 .bf16) (mk : FVec Ideal S256x2048 .f32)
    (Q K V : AH) (M : AM) (hd : Fin 2) (r : Fin 256) (d : Fin 64) (b : Fin 4) (H : Fin 16) (s : Fin 2048)
    (hq : ∀ d' : Fin 64, q (ix4 (0 : Fin 1) hd r d') = Q (ix4 b H s d'))
    (hk : ∀ (t : Fin 2048) (d' : Fin 64), k (ix4 (0 : Fin 1) hd t d') = K (ix4 b H t d'))
    (hv : ∀ t : Fin 2048, v (ix4 (0 : Fin 1) hd t d) = V (ix4 b H t d))
    (hm : ∀ t : Fin 2048, mk (ix2 r t) = M (ix2 s t)) :
    bout q k v mk hd r d = headOut ninf scale Q K V M b H s d := by
  have hs : ∀ t : Fin 2048, bscore q k mk hd r t = score scale Q K M b H s t := fun t => by
    unfold bscore score
    refine congrArg₂ (· + ·) (congrArg (· * scale) (Finset.sum_congr rfl fun d' _ => ?_)) (hm t)
    exact congrArg₂ (· * ·) (hq d') (hk t d')
  have hmax : bmax q k mk hd r = rowMax ninf scale Q K M b H s := by
    unfold bmax rowMax
    exact congrArg ((Finset.univ : Finset (Fin 2048)).fold max ninf) (funext hs)
  have hn : ∀ t : Fin 2048, bnum q k mk hd r t = pnum ninf scale Q K M b H s t := fun t => by
    unfold bnum pnum
    exact congrArg Ideal.exp (congrArg₂ (· - ·) (hs t) hmax)
  unfold bout headOut
  refine Finset.sum_congr rfl fun t _ => congrArg₂ (· * ·) ?_ (hv t)
  unfold bweight weight
  exact congrArg₂ Ideal.div (hn t) (Finset.sum_congr rfl fun t' _ => hn t')

end Cert.KernelIdeal.Hand.Attn

end
-- ==== Proof.AttnCover.lean ====
/-
  The attention region's output blocks tile its [4, 2048, 1024] array: the block of grid point (b, h2, sq) is rows
  256 sq .. 256 sq + 255 and columns 128 h2 .. 128 h2 + 127 of batch b, so every index lies in exactly one point's block.
-/
import proofs.«428168_j50998441673227_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

namespace AttnCover

/-- The index map over the grid: point `t` is (b, h2, sq) = (t / 64, t / 8 % 8, t % 8) and writes block (b, sq, h2). -/
theorem idx_facts : ∀ t : Fin cfg1.N, win1_4.index t (0 : Fin 3) = t.val / 64 ∧ win1_4.index t (1 : Fin 3) = t.val % 8
    ∧ win1_4.index t (2 : Fin 3) = t.val / 8 % 8 :=
  (by decide +kernel : ∀ t : Fin grid1.N, _)

/-- An index of the array is in point `t`'s block iff each coordinate is in the block's range on its axis. -/
theorem mem_blk (t : Fin cfg1.N) (i : S4x2048x1024.Idx) :
    i ∈ ((cfg1.win 4).blk t).view.set ↔ ∀ a : Fin 3, win1_4.index t a * S1x256x128.size a ≤ (i a).val ∧ (i a).val < win1_4.index t a * S1x256x128.size a + S1x256x128.size a := by
  show i ∈ ((View.whole main_v5).slice (win1_4.rect t)).set ↔ _
  rw [View.set_slice_whole, Rect.mem_set_unit]
  exact Iff.rfl

/-- The point whose block holds index (b, s, e): (b, e / 128, s / 256) in the grid's order. -/
theorem point_of (i : S4x2048x1024.Idx) : ∃ t : Fin cfg1.N, t.val = (i 0).val * 64 + (i 2).val / 128 * 8 + (i 1).val / 256 := by
  have h0 : (i 0).val < 4 := (i 0).isLt
  have h1 : (i 1).val < 2048 := (i 1).isLt
  have h2 : (i 2).val < 1024 := (i 2).isLt
  exact ⟨⟨(i 0).val * 64 + (i 2).val / 128 * 8 + (i 1).val / 256, by rw [show cfg1.N = 256 from N_1]; omega⟩, rfl⟩

end AttnCover

/-- Every index of the attention output array is in the block of some grid point (and every point writes back). -/
theorem attn_covered (i : S4x2048x1024.Idx) :
    ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 1024 := (i 2).isLt
  obtain ⟨t, ht⟩ := AttnCover.point_of i
  obtain ⟨e0, e1, e2⟩ := AttnCover.idx_facts t
  refine ⟨t, flush1_4 t, ?_⟩
  rw [AttnCover.mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 128 ≤ (i 2).val ∧ (i 2).val < win1_4.index t (2 : Fin 3) * 128 + 128; omega

end Cert.KernelIdeal.Hand

end
-- ==== Proof.AttnValue.lean ====
/-
  The second region: grid point (b, h2, sq) takes 256 query rows of two heads, all 2048 key and value rows of those heads
  and 256 rows of the mask, computes the softmax-weighted values of both heads and writes them side by side as 128 columns.
  After the last point the output array is the attention of the arrays the region was entered with.
-/
import proofs.«428168_j50998441673227_3_alg».proof.Proof.Gen.KernelIdeal.Frame
import proofs.«428168_j50998441673227_3_alg».proof.Proof.Spec
import proofs.«428168_j50998441673227_3_alg».proof.Proof.AttnValueAux1
import proofs.«428168_j50998441673227_3_alg».proof.Proof.AttnCover
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Attention

-- the buffer contents a region is entered from: a parameter
variable (V : (c : Dev nD) → (b : Ref sig .tc) → Buf (Elt Ideal) ((c : Thread nD τ).loc b))

namespace Attn

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output's staging buffer: its arithmetic of the three blocks and of the mask rows it loads. -/
theorem out_piece (c : Dev nD) (i : grid1.Coords) (arg3 : Memref sig .tc .vmem S1x2x256x64 .bf16) (harg3 : arg3.IsWhole) (arg4 : Memref sig .tc .vmem S1x2x2048x64 .bf16) (harg4 : arg4.IsWhole) (arg5 : Memref sig .tc .vmem S1x2x2048x64 .bf16) (harg5 : arg5.IsWhole) (arg6 : Memref sig .tc .vmem S2048x2048 .f32) (harg6 : arg6.IsWhole) (arg7 : Memref sig .tc .vmem S1x256x128 .f32) (harg7 : arg7.IsWhole)
    (x0 : Vec Ideal S1x2x256x64 .bf16) (x1 : Vec Ideal S1x2x2048x64 .bf16) (x2 : Vec Ideal S1x2x2048x64 .bf16) (x3 : Vec Ideal S2048x2048 .f32) :
    out1_A_4 (F := Ideal) c i arg3 harg3 arg4 harg4 arg5 harg5 arg6 harg6 arg7 harg7 x0 x1 x2 x3
      = k1_pay1 x0 x1 x2 (View.ld x3 (Rect.unit (s := S2048x2048) (k1_off1 i) S256x2048.size (k1_off1_inb i))) := by
  unfold out1_A_4
  rw [View.read_writes_eq_canon _ _ _ (cover1_A_4 c i arg3 harg3 arg4 harg4 arg5 harg5 arg6 harg6 arg7 harg7 x0 x1 x2 x3)]
  unfold kernelRun1_A
  dsimp only
  sl_unfold_run_names
  rw [View.canon_unit_zero hz3]
  simp only [View.readAt_eq_ld, harg3.read_unread, harg4.read_unread, harg5.read_unread, harg6.read_unread,
    View.ld_unit_zero (S := S1x2x256x64) hz4, View.ld_unit_zero (S := S1x2x2048x64) hz4]

/-! ## The index maps at a point, in terms of its coordinates (b, h2, sq) -/

theorem coords_lt (i : grid1.Coords) : (i 0).val < 4 ∧ (i 1).val < 8 ∧ (i 2).val < 8 := ⟨(i 0).isLt, (i 1).isLt, (i 2).isLt⟩

/-- A small number as a 32-bit word keeps its value. -/
theorem word_val (n : Nat) (hn : n < 8) : (BitVec.ofNat 32 n).toNat = n := by
  rw [BitVec.toNat_ofNat]; exact Nat.mod_eq_of_lt (by omega)

/-- The query block's index: (b, h2, sq, 0). -/
theorem q_index (i : grid1.Coords) : cc1_transform_0 i 0 = (i 0).val ∧ cc1_transform_0 i 1 = (i 1).val ∧ cc1_transform_0 i 2 = (i 2).val ∧ cc1_transform_0 i 3 = 0 := by
  obtain ⟨h0, h1, h2⟩ := coords_lt i
  exact ⟨word_val _ (by omega), word_val _ h1, word_val _ h2, rfl⟩

/-- The key block's index: (b, h2, 0, 0). -/
theorem k_index (i : grid1.Coords) : cc1_transform_1 i 0 = (i 0).val ∧ cc1_transform_1 i 1 = (i 1).val ∧ cc1_transform_1 i 2 = 0 ∧ cc1_transform_1 i 3 = 0 := by
  obtain ⟨h0, h1, h2⟩ := coords_lt i
  exact ⟨word_val _ (by omega), word_val _ h1, rfl, rfl⟩

/-- The value block's index: (b, h2, 0, 0). -/
theorem v_index (i : grid1.Coords) : cc1_transform_2 i 0 = (i 0).val ∧ cc1_transform_2 i 1 = (i 1).val ∧ cc1_transform_2 i 2 = 0 ∧ cc1_transform_2 i 3 = 0 := by
  obtain ⟨h0, h1, h2⟩ := coords_lt i
  exact ⟨word_val _ (by omega), word_val _ h1, rfl, rfl⟩

/-- The mask is one block. -/
theorem m_index (i : grid1.Coords) : cc1_transform_3 i 0 = 0 ∧ cc1_transform_3 i 1 = 0 := ⟨rfl, rfl⟩

/-- The output block's index: (b, sq, h2). -/
theorem o_index (i : grid1.Coords) : cc1_transform_4 i 0 = (i 0).val ∧ cc1_transform_4 i 1 = (i 2).val ∧ cc1_transform_4 i 2 = (i 1).val := by
  obtain ⟨h0, h1, h2⟩ := coords_lt i
  exact ⟨word_val _ (by omega), word_val _ h2, word_val _ h1⟩

/-- The mask rows the body loads start at row 256 * sq, column 0. -/
theorem off_rows (i : grid1.Coords) : k1_off1 i 0 = 256 * (i 2).val ∧ k1_off1 i 1 = 0 := by
  obtain ⟨h0, h1, h2⟩ := coords_lt i
  refine ⟨?_, rfl⟩
  show (BitVec.ofNat 32 (i 2).val * 256#32).toNat = 256 * (i 2).val
  rw [BitVec.toNat_mul, word_val _ h2]
  show (i 2).val * 256 % 2 ^ 32 = 256 * (i 2).val
  omega

/-! ## The blocks a point is given, read off the arrays -/

/-- The query block of point (b, h2, sq): heads 2 h2, 2 h2 + 1 and rows 256 sq .. 256 sq + 255 of batch b. -/
theorem q_blk_apply (c : Dev nD) (t : Fin cfg1.N) (y : S1x2x256x64.Idx) (k : S4x16x2048x64.Idx)
    (h0 : (k 0).val = (grid1.coords t 0).val) (h1 : (k 1).val = 2 * (grid1.coords t 1).val + (y 1).val)
    (h2 : (k 2).val = 256 * (grid1.coords t 2).val + (y 2).val) (h3 : (k 3).val = (y 3).val) :
    (iblk1 V c 0 t : Vec Ideal S1x2x256x64 .bf16) y = (V c main_v4_0 : S4x16x2048x64.Idx → Elt Ideal .bf16) k := by
  obtain ⟨e0, e1, e2, e3⟩ := q_index (grid1.coords t)
  have hy0 : (y 0).val < 1 := (y 0).isLt
  unfold iblk1
  rw [View.read_apply]
  show V c main_v4_0 _ = V c main_v4_0 _
  congr 1
  funext a
  apply Fin.ext
  match a with
  | ⟨0, _⟩ => show cc1_transform_0 (grid1.coords t) 0 * 1 + 1 * (y 0).val = (k 0).val; rw [e0, h0]; omega
  | ⟨1, _⟩ => show cc1_transform_0 (grid1.coords t) 1 * 2 + 1 * (y 1).val = (k 1).val; rw [e1, h1]; omega
  | ⟨2, _⟩ => show cc1_transform_0 (grid1.coords t) 2 * 256 + 1 * (y 2).val = (k 2).val; rw [e2, h2]; omega
  | ⟨3, _⟩ => show cc1_transform_0 (grid1.coords t) 3 * 64 + 1 * (y 3).val = (k 3).val; rw [e3, h3]; omega

/-- The key block of point (b, h2, sq): heads 2 h2, 2 h2 + 1 and every row of batch b. -/
theorem k_blk_apply (c : Dev nD) (t : Fin cfg1.N) (y : S1x2x2048x64.Idx) (k : S4x16x2048x64.Idx)
    (h0 : (k 0).val = (grid1.coords t 0).val) (h1 : (k 1).val = 2 * (grid1.coords t 1).val + (y 1).val)
    (h2 : (k 2).val = (y 2).val) (h3 : (k 3).val = (y 3).val) :
    (iblk1 V c 1 t : Vec Ideal S1x2x2048x64 .bf16) y = (V c main_v4_1 : S4x16x2048x64.Idx → Elt Ideal .bf16) k := by
  obtain ⟨e0, e1, e2, e3⟩ := k_index (grid1.coords t)
  have hy0 : (y 0).val < 1 := (y 0).isLt
  unfold iblk1
  rw [View.read_apply]
  show V c main_v4_1 _ = V c main_v4_1 _
  congr 1
  funext a
  apply Fin.ext
  match a with
  | ⟨0, _⟩ => show cc1_transform_1 (grid1.coords t) 0 * 1 + 1 * (y 0).val = (k 0).val; rw [e0, h0]; omega
  | ⟨1, _⟩ => show cc1_transform_1 (grid1.coords t) 1 * 2 + 1 * (y 1).val = (k 1).val; rw [e1, h1]; omega
  | ⟨2, _⟩ => show cc1_transform_1 (grid1.coords t) 2 * 2048 + 1 * (y 2).val = (k 2).val; rw [e2, h2]; omega
  | ⟨3, _⟩ => show cc1_transform_1 (grid1.coords t) 3 * 64 + 1 * (y 3).val = (k 3).val; rw [e3, h3]; omega

/-- The value block of point (b, h2, sq): heads 2 h2, 2 h2 + 1 and every row of batch b. -/
theorem v_blk_apply (c : Dev nD) (t : Fin cfg1.N) (y : S1x2x2048x64.Idx) (k : S4x16x2048x64.Idx)
    (h0 : (k 0).val = (grid1.coords t 0).val) (h1 : (k 1).val = 2 * (grid1.coords t 1).val + (y 1).val)
    (h2 : (k 2).val = (y 2).val) (h3 : (k 3).val = (y 3).val) :
    (iblk1 V c 2 t : Vec Ideal S1x2x2048x64 .bf16) y = (V c main_v4_2 : S4x16x2048x64.Idx → Elt Ideal .bf16) k := by
  obtain ⟨e0, e1, e2, e3⟩ := v_index (grid1.coords t)
  have hy0 : (y 0).val < 1 := (y 0).isLt
  unfold iblk1
  rw [View.read_apply]
  show V c main_v4_2 _ = V c main_v4_2 _
  congr 1
  funext a
  apply Fin.ext
  match a with
  | ⟨0, _⟩ => show cc1_transform_2 (grid1.coords t) 0 * 1 + 1 * (y 0).val = (k 0).val; rw [e0, h0]; omega
  | ⟨1, _⟩ => show cc1_transform_2 (grid1.coords t) 1 * 2 + 1 * (y 1).val = (k 1).val; rw [e1, h1]; omega
  | ⟨2, _⟩ => show cc1_transform_2 (grid1.coords t) 2 * 2048 + 1 * (y 2).val = (k 2).val; rw [e2, h2]; omega
  | ⟨3, _⟩ => show cc1_transform_2 (grid1.coords t) 3 * 64 + 1 * (y 3).val = (k 3).val; rw [e3, h3]; omega

/-- The mask window's one block is the mask. -/
theorem m_blk_apply (c : Dev nD) (t : Fin cfg1.N) (y : S2048x2048.Idx) (k : S2048x2048.Idx)
    (h0 : (k 0).val = (y 0).val) (h1 : (k 1).val = (y 1).val) :
    (iblk1 V c 3 t : Vec Ideal S2048x2048 .f32) y = (V c main_arg1 : S2048x2048.Idx → Elt Ideal .f32) k := by
  obtain ⟨e0, e1⟩ := m_index (grid1.coords t)
  unfold iblk1
  rw [View.read_apply]
  show V c main_arg1 _ = V c main_arg1 _
  congr 1
  funext a
  apply Fin.ext
  match a with
  | ⟨0, _⟩ => show cc1_transform_3 (grid1.coords t) 0 * 2048 + 1 * (y 0).val = (k 0).val; rw [e0, h0]; omega
  | ⟨1, _⟩ => show cc1_transform_3 (grid1.coords t) 1 * 2048 + 1 * (y 1).val = (k 1).val; rw [e1, h1]; omega

/-- The rows of it the body loads at point (b, h2, sq): rows 256 sq .. 256 sq + 255. -/
theorem m_rows_apply (c : Dev nD) (t : Fin cfg1.N) (y : S256x2048.Idx) (k : S2048x2048.Idx)
    (h0 : (k 0).val = 256 * (grid1.coords t 2).val + (y 0).val) (h1 : (k 1).val = (y 1).val) :
    View.ld (iblk1 V c 3 t : Vec Ideal S2048x2048 .f32)
        (Rect.unit (s := S2048x2048) (k1_off1 (grid1.coords t)) S256x2048.size (k1_off1_inb (grid1.coords t))) y
      = (V c main_arg1 : S2048x2048.Idx → Elt Ideal .f32) k := by
  obtain ⟨o0, o1⟩ := off_rows (grid1.coords t)
  refine m_blk_apply V c t _ k ?_ ?_
  · show (k 0).val = k1_off1 (grid1.coords t) 0 + 1 * (y 0).val; rw [o0, h0]; omega
  · show (k 1).val = k1_off1 (grid1.coords t) 1 + 1 * (y 1).val; rw [o1, h1]; omega

/-! ## One entry of a point's block -/

/-- When the blocks a point is given are the arrays' entries at batch b, heads 2 h2 + ., rows 256 sq + . (queries, mask)
    and every key position, the body's result at (r, e) of its block is the attention at (b, 256 sq + r, 128 h2 + e). -/
theorem block_entry (x0 : FVec Ideal S1x2x256x64 .bf16) (x1 x2 : FVec Ideal S1x2x2048x64 .bf16) (xm : FVec Ideal S256x2048 .f32)
    (Q K Vv : AH) (M : AM) (b h2 sq : Nat)
    (hq : ∀ (y : S1x2x256x64.Idx) (k : S4x16x2048x64.Idx), (k 0).val = b → (k 1).val = 2 * h2 + (y 1).val →
      (k 2).val = 256 * sq + (y 2).val → (k 3).val = (y 3).val → x0 y = Q k)
    (hk : ∀ (y : S1x2x2048x64.Idx) (k : S4x16x2048x64.Idx), (k 0).val = b → (k 1).val = 2 * h2 + (y 1).val →
      (k 2).val = (y 2).val → (k 3).val = (y 3).val → x1 y = K k)
    (hv : ∀ (y : S1x2x2048x64.Idx) (k : S4x16x2048x64.Idx), (k 0).val = b → (k 1).val = 2 * h2 + (y 1).val →
      (k 2).val = (y 2).val → (k 3).val = (y 3).val → x2 y = Vv k)
    (hm : ∀ (y : S256x2048.Idx) (k : S2048x2048.Idx), (k 0).val = 256 * sq + (y 0).val → (k 1).val = (y 1).val → xm y = M k)
    (y : S1x256x128.Idx) (i : S4x2048x1024.Idx) (hi0 : (i 0).val = b) (hi1 : (i 1).val = 256 * sq + (y 1).val)
    (hi2 : (i 2).val = 128 * h2 + (y 2).val) :
    k1_pay1 (F := Ideal) x0 x1 x2 xm y = attn ninf scale Q K Vv M i := by
  obtain ⟨u, r, e, rfl⟩ : ∃ (u : Fin 1) (r : Fin 256) (e : Fin 128), y = ix3 u r e := ⟨y 0, y 1, y 2, eq_ix3 y⟩
  obtain rfl : u = 0 := Subsingleton.elim _ _
  have hi1' : (i 1).val = 256 * sq + r.val := hi1
  have hi2' : (i 2).val = 128 * h2 + e.val := hi2
  have he : e.val < 128 := e.isLt
  have hI2 : (i 2).val < 1024 := (i 2).isLt
  refine (pay_apply x0 x1 x2 xm r e).trans ?_
  refine (bout_eq_headOut x0 x1 x2 xm Q K Vv M (⟨e.val / 64, by omega⟩ : Fin 2) r (⟨e.val % 64, by omega⟩ : Fin 64)
    (i 0) (⟨(i 2).val / 64, by omega⟩ : Fin 16) (i 1)
    (fun d' => hq _ _ ?_ ?_ ?_ ?_) (fun t d' => hk _ _ ?_ ?_ ?_ ?_) (fun t => hv _ _ ?_ ?_ ?_ ?_) (fun t => hm _ _ ?_ ?_)).trans ?_
  · exact hi0
  · show (i 2).val / 64 = 2 * h2 + e.val / 64; omega
  · exact hi1'
  · rfl
  · exact hi0
  · show (i 2).val / 64 = 2 * h2 + e.val / 64; omega
  · rfl
  · rfl
  · exact hi0
  · show (i 2).val / 64 = 2 * h2 + e.val / 64; omega
  · rfl
  · rfl
  · exact hi1'
  · rfl
  · exact congrArg (headOut ninf scale Q K Vv M (i 0) (⟨(i 2).val / 64, by omega⟩ : Fin 16) (i 1))
      (Fin.ext (show e.val % 64 = (i 2).val % 64 by omega))

/-! ## What a point writes back, and the array after the last point -/

/-- WHAT POINT t WRITES BACK is block t of the attention of the arrays the region was entered with. -/
theorem flushed_eq (c : Dev nD) (t : Fin cfg1.N) :
    (dat1 V c).flushed 4 t = ((cfg1.win 4).blk t).view.read (Elt Ideal)
      (attn ninf scale (V c main_v4_0) (V c main_v4_1) (V c main_v4_2) (V c main_arg1)) := by
  obtain ⟨e0, e1, e2⟩ := o_index (grid1.coords t)
  show (cfg1.win 4).cut (grid1.coords t) ((dat1 V c).after 4 t) = _
  rw [after1_4]
  unfold outsAt1
  rw [out_piece]
  funext j
  have hj0 : (j 0).val < 1 := (j 0).isLt
  refine block_entry (iblk1 V c 0 t) (iblk1 V c 1 t) (iblk1 V c 2 t)
    (View.ld (iblk1 V c 3 t : Vec Ideal S2048x2048 .f32)
      (Rect.unit (s := S2048x2048) (k1_off1 (grid1.coords t)) S256x2048.size (k1_off1_inb (grid1.coords t))))
    (V c main_v4_0) (V c main_v4_1) (V c main_v4_2) (V c main_arg1)
    (grid1.coords t 0).val (grid1.coords t 1).val (grid1.coords t 2).val
    (fun y k h0 h1 h2 h3 => q_blk_apply V c t y k h0 h1 h2 h3)
    (fun y k h0 h1 h2 h3 => k_blk_apply V c t y k h0 h1 h2 h3)
    (fun y k h0 h1 h2 h3 => v_blk_apply V c t y k h0 h1 h2 h3)
    (fun y k h0 h1 => m_rows_apply V c t y k h0 h1)
    ((cfg1.win 4).xinj (grid1.coords t) j) (((cfg1.win 4).blk t).view.emb j) ?_ ?_ ?_
  · show cc1_transform_4 (grid1.coords t) 0 * 1 + 1 * (j 0).val = (grid1.coords t 0).val; rw [e0]; omega
  · show cc1_transform_4 (grid1.coords t) 1 * 256 + 1 * (j 1).val = 256 * (grid1.coords t 2).val + (j 1).val; rw [e1]; omega
  · show cc1_transform_4 (grid1.coords t) 2 * 128 + 1 * (j 2).val = 128 * (grid1.coords t 1).val + (j 2).val; rw [e2]; omega

end Attn

/-- The attention output array after the region. -/
theorem attn_final (c : Dev nD) :
    ((dat1 V c).arrAt 4 cfg1.N : S4x2048x1024.Idx → EReal)
      = attn ninf scale (V c main_v4_0) (V c main_v4_1) (V c main_v4_2) (V c main_arg1) :=
  (dat1 V c).arrAt_eq_of_cover 4 (attn ninf scale (V c main_v4_0) (V c main_v4_1) (V c main_v4_2) (V c main_arg1))
    (fun t _ => Attn.flushed_eq V c t) attn_covered

end Cert.KernelIdeal.Hand

end
-- ==== Proof.OutValue.lean ====
/-
  The third region: each grid point multiplies 512 rows by the output weights and adds the bias row. After the last point
  the output array is the output projection of the arrays the region was entered with.
-/
import proofs.«428168_j50998441673227_3_alg».proof.Proof.Gen.KernelIdeal.Frame
import proofs.«428168_j50998441673227_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Attention

/-! ## The body's arithmetic at an index -/

/-- The product's left operand is read at the output's row … -/
theorem lhs_out_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and the summation index, -/
theorem lhs_out_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the summation index … -/
theorem rhs_out_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and the output's column. -/
theorem rhs_out_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into a zero accumulator, entry by entry. -/
theorem matmul_at (a : FVec Ideal S512x1024 .bf16) (b : FVec Ideal S1024x1024 .bf16) (r : Fin 512) (e : Fin 1024) :
    matmul dot_S512x1024_S1024x1024_S512x1024_1_0_0_1_n_n none a b (constant S512x1024 .f32 0x00000000#32) (ix2 r e)
      = ∑ d : Fin 1024, a (ix2 r d) * b (ix2 d e) := by
  show FloatOps.matmul dot_S512x1024_S1024x1024_S512x1024_1_0_0_1_n_n none a b (constant S512x1024 .f32 0x00000000#32) (ix2 r e) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun x => Fin.ext (by
    match x with
    | ⟨0, _⟩ => exact lhs_out_0 _ _
    | ⟨1, _⟩ => exact (lhs_out_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun x => Fin.ext (by
    match x with
    | ⟨0, _⟩ => exact (rhs_out_0 _ _).trans hk
    | ⟨1, _⟩ => exact rhs_out_1 _ _)
  rw [el, er]

/-- The bias row spread over the 512 rows, entry by entry. -/
theorem bias_at (x2 : Vec Ideal S1x1024 .f32) (r : Fin 512) (e : Fin 1024) :
    broadcastTo S512x1024 x2 broadcasts_S1x1024_S512x1024 (ix2 r e) = x2 (ix2 (0 : Fin 1) e) := by
  refine broadcastTo_apply x2 broadcasts_S1x1024_S512x1024 (ix2 r e) (ix2 (0 : Fin 1) e) fun a => ?_
  match a with
  | ⟨0, _⟩ => rfl
  | ⟨1, _⟩ => rfl

/-- What a point stores: its 512 rows times the weights, plus the bias row. -/
theorem pay_at (x0 : Vec Ideal S512x1024 .f32) (x1 : Vec Ideal S1024x1024 .bf16) (x2 : Vec Ideal S1x1024 .f32) (r : Fin 512) (e : Fin 1024) :
    k2_pay1 x0 x1 x2 (ix2 r e) = (∑ d : Fin 1024, x0 (ix2 r d) * x1 (ix2 d e)) + x2 (ix2 (0 : Fin 1) e) := by
  unfold k2_pay1
  rw [addf_apply, shapeCast_self, shapeCast_self, shapeCast_self]
  rw [matmul_at, bias_at]
  rfl

/-! ## What each point reads and writes, as entries of the whole arrays -/

-- the buffer contents a region is entered from: a parameter
variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the rows and the output move with the point, the weights and the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point `t`'s block of the rows is rows `512 t … 512 t + 511` of the array. -/
theorem rows_at (c : Dev nD) (t : Fin cfg2.N) (y : S512x1024.Idx) (k : S8192x1024.Idx)
    (hk0 : (k 0).val = t.val * 512 + (y 0).val) (hk1 : (k 1).val = (y 1).val) :
    (iblk2 V c 0 t : Vec Ideal S512x1024 .f32) y = (V c main_v6 : S8192x1024.Idx → EReal) k := by
  obtain ⟨e0, e1, -⟩ := idx_facts t
  unfold iblk2
  rw [View.read_apply]
  show V c main_v6 _ = V c main_v6 _
  congr 1
  funext a
  apply Fin.ext
  match a with
  | ⟨0, _⟩ => show win2_0.index t (0 : Fin 2) * 512 + 1 * (y 0).val = (k 0).val; rw [e0, hk0]; omega
  | ⟨1, _⟩ => show win2_0.index t (1 : Fin 2) * 1024 + 1 * (y 1).val = (k 1).val; rw [e1, hk1]; omega

/-- Every point's block of the weights is the whole array. -/
theorem weights_at (c : Dev nD) (t : Fin cfg2.N) (y k : S1024x1024.Idx)
    (hk0 : (k 0).val = (y 0).val) (hk1 : (k 1).val = (y 1).val) :
    (iblk2 V c 1 t : Vec Ideal S1024x1024 .bf16) y = (V c main_v7 : S1024x1024.Idx → EReal) k := by
  obtain ⟨-, -, e0, e1, -⟩ := idx_facts t
  unfold iblk2
  rw [View.read_apply]
  show V c main_v7 _ = V c main_v7 _
  congr 1
  funext a
  apply Fin.ext
  match a with
  | ⟨0, _⟩ => show win2_1.index t (0 : Fin 2) * 1024 + 1 * (y 0).val = (k 0).val; rw [e0, hk0]; omega
  | ⟨1, _⟩ => show win2_1.index t (1 : Fin 2) * 1024 + 1 * (y 1).val = (k 1).val; rw [e1, hk1]; omega

/-- Every point's block of the bias is the whole row. -/
theorem bias_blk_at (c : Dev nD) (t : Fin cfg2.N) (y k : S1x1024.Idx)
    (hk0 : (k 0).val = (y 0).val) (hk1 : (k 1).val = (y 1).val) :
    (iblk2 V c 2 t : Vec Ideal S1x1024 .f32) y = (V c main_v8 : S1x1024.Idx → EReal) k := by
  obtain ⟨-, -, -, -, e0, e1, -⟩ := idx_facts t
  unfold iblk2
  rw [View.read_apply]
  show V c main_v8 _ = V c main_v8 _
  congr 1
  funext a
  apply Fin.ext
  match a with
  | ⟨0, _⟩ => show win2_2.index t (0 : Fin 2) * 1 + 1 * (y 0).val = (k 0).val; rw [e0, hk0]; omega
  | ⟨1, _⟩ => show win2_2.index t (1 : Fin 2) * 1024 + 1 * (y 1).val = (k 1).val; rw [e1, hk1]; omega

/-- What point `t` writes back is block `t` of the projection of the arrays the region was entered with. -/
theorem flushed_eq (c : Dev nD) (t : Fin cfg2.N) :
    (dat2 V c).flushed 3 t = ((cfg2.win 3).blk t).view.read (Elt Ideal) (outp (V c main_v6) (V c main_v7) (V c main_v8)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨-, -, -, -, -, -, e0, e1⟩ := idx_facts t
  refine funext fun (j : S512x1024.Idx) => ?_
  obtain ⟨r, e, rfl⟩ : ∃ (r : Fin 512) (e : Fin 1024), j = ix2 r e := ⟨j 0, j 1, eq_ix2 j⟩
  show k2_pay1 (iblk2 V c 0 t) (iblk2 V c 1 t) (iblk2 V c 2 t) (ix2 r e)
    = outp (V c main_v6) (V c main_v7) (V c main_v8) (((cfg2.win 3).blk t).view.emb (ix2 r e))
  refine (pay_at (iblk2 V c 0 t) (iblk2 V c 1 t) (iblk2 V c 2 t) r e).trans ?_
  have hi0 : ((((cfg2.win 3).blk t).view.emb (ix2 r e) : S8192x1024.Idx) 0).val = t.val * 512 + r.val := by
    show win2_3.index t (0 : Fin 2) * 512 + 1 * r.val = _; rw [e0]; omega
  have hi1 : ((((cfg2.win 3).blk t).view.emb (ix2 r e) : S8192x1024.Idx) 1).val = e.val := by
    show win2_3.index t (1 : Fin 2) * 1024 + 1 * e.val = _; rw [e1]; omega
  unfold outp
  refine congrArg₂ (· + ·) (Finset.sum_congr rfl fun d _ => congrArg₂ (· * ·) ?_ ?_) ?_
  · exact rows_at V c t (ix2 r d) _ hi0 rfl
  · exact weights_at V c t (ix2 d e) _ rfl hi1
  · exact bias_blk_at V c t (ix2 (0 : Fin 1) e) _ rfl hi1

/-- An index of the array is in point `t`'s block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v9).slice (win2_3.rect t)).set ↔ _
  rw [View.set_slice_whole, Rect.mem_set_unit]
  exact Iff.rfl

/-- Row `r` of the array lies in the block of point `r / 512`. -/
theorem covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ : ∃ t : Fin cfg2.N, t.val = (i 0).val / 512 :=
    ⟨⟨(i 0).val / 512, by rw [show cfg2.N = 16 from N_2]; omega⟩, rfl⟩
  obtain ⟨-, -, -, -, -, -, e0, e1⟩ := idx_facts t
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; rw [e0]; omega
  | ⟨1, _⟩ => show win2_3.index t (1 : Fin 2) * 1024 ≤ (i 1).val ∧ (i 1).val < win2_3.index t (1 : Fin 2) * 1024 + 1024; rw [e1]; omega

/-- The projected array after the region. -/
theorem out_final (c : Dev nD) :
    ((dat2 V c).arrAt 3 cfg2.N : S8192x1024.Idx → EReal) = outp (V c main_v6) (V c main_v7) (V c main_v8) :=
  (dat2 V c).arrAt_eq_of_cover 3 (outp (V c main_v6) (V c main_v7) (V c main_v8)) (fun t _ => flushed_eq V c t) covered

end Cert.KernelIdeal.Hand

end
-- ==== Proof.KernelValue.lean ====
/-
  The kernel program's result buffer after the run, as the function `G` of the six argument arrays.

  The buffer contents are followed through @main: the host stretch before the first region (reshape of x to 8192 rows, the
  format changes — the identity on extended reals —, the bias as one row), the first region (the three projections), the
  second region (attention, reading the mask argument directly), the host stretch before the third region (reshape of the
  attention output to 8192 rows, the second bias as one row), the third region (the output projection) and the last
  reshape back to [4, 2048, 1024]. Each region's arrays are read by the region's value theorem at the contents the
  region was entered with; a buffer no operation and no region writes keeps its launch contents.
-/
import proofs.«428168_j50998441673227_3_alg».proof.Proof.Gen.KernelIdeal.Frame
import proofs.«428168_j50998441673227_3_alg».proof.Proof.Spec
import proofs.«428168_j50998441673227_3_alg».proof.Proof.SpecLayout
import proofs.«428168_j50998441673227_3_alg».proof.Proof.QkvValue
import proofs.«428168_j50998441673227_3_alg».proof.Proof.AttnValue
import proofs.«428168_j50998441673227_3_alg».proof.Proof.OutValue
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Attention

variable (m : (ℓ : Loc nD τ sig) → Buf (Elt Ideal) ℓ) (ρ : Dev nD → PrngReg)

/-! ## Buffers that nothing writes keep their launch contents -/

/-- The mask when the second region is entered. -/
theorem W2_mask (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _
          after_results
    _ = m ((c : Thread nD τ).loc main_arg1) := rfl

/-- The output weights when the host stretch before the third region starts. -/
theorem W3_wo (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = _
          after_results
    _ = m ((c : Thread nD τ).loc main_arg4) := rfl

/-- The output bias when the host stretch before the third region starts. -/
theorem W3_bo (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          after_results
    _ = m ((c : Thread nD τ).loc main_arg5) := rfl

/-! ## The host stretches -/

/-- The first region's input rows: x cast to 8192 rows (the format change is the identity). -/
theorem V1_x (c : Dev nD) : (V1 m ρ c main_v1 : S8192x1024.Idx → EReal) = flat (m ((c : Thread nD τ).loc main_arg0)) := by
  refine Eq.trans ?_ (shapeCast_flat (m ((c : Thread nD τ).loc main_arg0)) shapeCasts_S4x2048x1024_S8192x1024)
  show StableHlo.after hostOps0 (W0 m ρ c) (Proc.devRef .tc main_v1) = _
  after_results
  rfl

/-- The first region's weights: the argument (the format change is the identity). -/
theorem V1_w (c : Dev nD) : (V1 m ρ c main_v2 : S1024x3072.Idx → EReal) = m ((c : Thread nD τ).loc main_arg2) := by
  show StableHlo.after hostOps0 (W0 m ρ c) (Proc.devRef .tc main_v2) = _
  after_results
  rfl

/-- The first region's bias row. -/
theorem V1_b (c : Dev nD) : (V1 m ρ c main_v3 : S1x3072.Idx → EReal) = rowOf (m ((c : Thread nD τ).loc main_arg3)) := by
  refine Eq.trans ?_ (shapeCast_rowOf (m ((c : Thread nD τ).loc main_arg3)) shapeCasts_S3072_S1x3072)
  show StableHlo.after hostOps0 (W0 m ρ c) (Proc.devRef .tc main_v3) = _
  after_results
  rfl

/-- The third region's input rows: the attention output cast to 8192 rows. -/
theorem V4_a (c : Dev nD) : (V4 m ρ c main_v6 : S8192x1024.Idx → EReal) = flat (W3 m ρ c (Proc.devRef .tc main_v5)) := by
  refine Eq.trans ?_ (shapeCast_flat (W3 m ρ c (Proc.devRef .tc main_v5)) shapeCasts_S4x2048x1024_S8192x1024)
  show StableHlo.after hostOps2 (W3 m ρ c) (Proc.devRef .tc main_v6) = _
  after_results
  rfl

/-- The third region's weights. -/
theorem V4_w (c : Dev nD) : (V4 m ρ c main_v7 : S1024x1024.Idx → EReal) = m ((c : Thread nD τ).loc main_arg4) := by
  refine Eq.trans ?_ (W3_wo m ρ c)
  show StableHlo.after hostOps2 (W3 m ρ c) (Proc.devRef .tc main_v7) = _
  after_results
  rfl

/-- The third region's bias row. -/
theorem V4_b (c : Dev nD) : (V4 m ρ c main_v8 : S1x1024.Idx → EReal) = rowOf (m ((c : Thread nD τ).loc main_arg5)) := by
  refine Eq.trans ?_ (shapeCast_rowOf (m ((c : Thread nD τ).loc main_arg5)) shapeCasts_S1024_S1x1024)
  refine Eq.trans ?_ (congrArg (fun v => shapeCast S1x1024 v shapeCasts_S1024_S1x1024) (W3_bo m ρ c))
  show StableHlo.after hostOps2 (W3 m ρ c) (Proc.devRef .tc main_v8) = _
  after_results
  rfl

/-- The result: the third region's output cast back to [4, 2048, 1024]. -/
theorem W6_result (c : Dev nD) :
    (W6 m ρ c (Proc.devRef .tc main_v10) : S4x2048x1024.Idx → EReal) = unflat (W5 m ρ c (Proc.devRef .tc main_v9)) := by
  refine Eq.trans ?_ (shapeCast_unflat (W5 m ρ c (Proc.devRef .tc main_v9)) shapeCasts_S8192x1024_S4x2048x1024)
  show StableHlo.after hostOps3 (W5 m ρ c) (Proc.devRef .tc main_v10) = _
  after_results
  rfl

/-! ## The regions, each at the contents it was entered with -/

/-- The query, key and value arrays when the second region is entered. -/
theorem V2_q (c : Dev nD) : (V2 m ρ c main_v4_0 : S4x16x2048x64.Idx → EReal)
    = proj 0 (by norm_num) (flat (m ((c : Thread nD τ).loc main_arg0))) (m ((c : Thread nD τ).loc main_arg2)) (rowOf (m ((c : Thread nD τ).loc main_arg3))) := by
  refine (W2_arr m ρ c 3).trans ((qkv_q (V1 m ρ) c).trans ?_)
  rw [V1_x, V1_w, V1_b]
theorem V2_k (c : Dev nD) : (V2 m ρ c main_v4_1 : S4x16x2048x64.Idx → EReal)
    = proj 64 (by norm_num) (flat (m ((c : Thread nD τ).loc main_arg0))) (m ((c : Thread nD τ).loc main_arg2)) (rowOf (m ((c : Thread nD τ).loc main_arg3))) := by
  refine (W2_arr m ρ c 4).trans ((qkv_k (V1 m ρ) c).trans ?_)
  rw [V1_x, V1_w, V1_b]
theorem V2_v (c : Dev nD) : (V2 m ρ c main_v4_2 : S4x16x2048x64.Idx → EReal)
    = proj 128 (by norm_num) (flat (m ((c : Thread nD τ).loc main_arg0))) (m ((c : Thread nD τ).loc main_arg2)) (rowOf (m ((c : Thread nD τ).loc main_arg3))) := by
  refine (W2_arr m ρ c 5).trans ((qkv_v (V1 m ρ) c).trans ?_)
  rw [V1_x, V1_w, V1_b]

/-- The attention output when the second region is left. -/
theorem W3_attn (c : Dev nD) : (W3 m ρ c (Proc.devRef .tc main_v5) : S4x2048x1024.Idx → EReal)
    = attn ninf scale
        (proj 0 (by norm_num) (flat (m ((c : Thread nD τ).loc main_arg0))) (m ((c : Thread nD τ).loc main_arg2)) (rowOf (m ((c : Thread nD τ).loc main_arg3))))
        (proj 64 (by norm_num) (flat (m ((c : Thread nD τ).loc main_arg0))) (m ((c : Thread nD τ).loc main_arg2)) (rowOf (m ((c : Thread nD τ).loc main_arg3))))
        (proj 128 (by norm_num) (flat (m ((c : Thread nD τ).loc main_arg0))) (m ((c : Thread nD τ).loc main_arg2)) (rowOf (m ((c : Thread nD τ).loc main_arg3))))
        (m ((c : Thread nD τ).loc main_arg1)) := by
  refine (W3_arr m ρ c 4).trans ((attn_final (V2 m ρ) c).trans ?_)
  rw [V2_q, V2_k, V2_v]
  exact congrArg (attn ninf scale _ _ _) (W2_mask m ρ c)

/-- The kernel program's result buffer after the run is `G` of the six arguments. -/
theorem kernel_value (c : Dev nD) :
    (W6 m ρ c (Proc.devRef .tc main_v10) : S4x2048x1024.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W6_result]
  unfold G
  refine congrArg unflat ?_
  refine (W5_arr m ρ c 3).trans ((out_final (V4 m ρ) c).trans ?_)
  rw [V4_a, V4_w, V4_b, W3_attn]

end Cert.KernelIdeal.Hand

end
-- ==== Proof.RefTail.lean ====
/-
  The reference's last operations: the heads' outputs transposed and reshaped to [4, 2048, 1024], multiplied by the output
  weights, plus the bias. Given what the heads' outputs are, the result is the specification's tail.
-/
import proofs.«428168_j50998441673227_3_alg».proof.Proof.Gen.ReferenceIdeal.Read
import proofs.«428168_j50998441673227_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read Cert.Attention

namespace Tail

/-! ## The specification's tail at an index -/

/-- Entry (b, s, e) of the specification's tail: row b * 2048 + s of the flattened attention times column e of the
    weights, plus the bias at e; column k of that row is feature k % 64 of head k / 64. -/
theorem spec_at (n0 sc : EReal) (Q K Vv : AH) (m : AM) (W : AWo) (bo : (⟨1, ![1024]⟩ : Shape).Idx → EReal)
    (b : Fin 4) (s : Fin 2048) (e : Fin 1024) :
    unflat (outp (flat (attn n0 sc Q K Vv m)) W (rowOf bo)) (ix3 b s e)
      = (∑ k : Fin 1024, headOut n0 sc Q K Vv m b (⟨k.val / 64, by omega⟩ : Fin 16) s (⟨k.val % 64, Nat.mod_lt _ (by norm_num)⟩ : Fin 64) * W (ix2 k e))
        + bo (ix1 e) := by
  have hb : ∀ h, (⟨(b.val * 2048 + s.val) / 2048, h⟩ : Fin 4) = b := fun h =>
    Fin.ext (by show (b.val * 2048 + s.val) / 2048 = b.val; have := s.isLt; omega)
  have hs : ∀ h, (⟨(b.val * 2048 + s.val) % 2048, h⟩ : Fin 2048) = s := fun h =>
    Fin.ext (by show (b.val * 2048 + s.val) % 2048 = s.val; have := s.isLt; omega)
  unfold unflat outp flat attn rowOf
  refine congrArg₂ (· + ·) (Finset.sum_congr rfl fun k _ => congrArg₂ (· * ·) ?_ rfl) rfl
  show headOut n0 sc Q K Vv m ⟨(b.val * 2048 + s.val) / 2048, _⟩ ⟨k.val / 64, _⟩ ⟨(b.val * 2048 + s.val) % 2048, _⟩ ⟨k.val % 64, _⟩ = _
  rw [hb, hs]

/-! ## The reference's index functions at coordinates -/

/-- The product's left operand is read at (b, s, k), -/
theorem lidx_at (b : Fin 4) (s : Fin 2048) (e k : Fin 1024) : lidx_main_v31 (ix3 b s e) k = ix3 b s k :=
  funext fun a => Fin.ext (by
    match a with
    | ⟨0, _⟩ => rfl
    | ⟨1, _⟩ => rfl
    | ⟨2, _⟩ => rfl)

/-- its right operand at (k, e). -/
theorem ridx_at (b : Fin 4) (s : Fin 2048) (e k : Fin 1024) : ridx_main_v31 (ix3 b s e) k = ix2 k e :=
  funext fun a => Fin.ext (by
    match a with
    | ⟨0, _⟩ => rfl
    | ⟨1, _⟩ => rfl)

/-- Column k of the reshaped array is feature k % 64 of head k / 64. -/
theorem reshape_at (b : Fin 4) (s : Fin 2048) (k : Fin 1024) :
    idx_main_v30 (ix3 b s k) = ix4 b s (⟨k.val / 64, by omega⟩ : Fin 16) (⟨k.val % 64, Nat.mod_lt _ (by norm_num)⟩ : Fin 64) :=
  funext fun a => Fin.ext (by
    have hb := b.isLt; have hs := s.isLt; have hk := k.isLt
    match a with
    | ⟨0, _⟩ => show ((b.val * 2048 + s.val) * 1024 + k.val) / 2097152 = b.val; omega
    | ⟨1, _⟩ => show ((b.val * 2048 + s.val) * 1024 + k.val) / 1024 % 2048 = s.val; omega
    | ⟨2, _⟩ => show ((b.val * 2048 + s.val) * 1024 + k.val) / 64 % 16 = k.val / 64; omega
    | ⟨3, _⟩ => show ((b.val * 2048 + s.val) * 1024 + k.val) % 64 = k.val % 64; omega)

/-- The transpose swaps the position and the head. -/
theorem transpose_at (b : Fin 4) (s : Fin 2048) (h : Fin 16) (d : Fin 64) : idx_main_v29 (ix4 b s h d) = ix4 b h s d :=
  funext fun a => Fin.ext (by
    match a with
    | ⟨0, _⟩ => rfl
    | ⟨1, _⟩ => rfl
    | ⟨2, _⟩ => rfl
    | ⟨3, _⟩ => rfl)

/-- The broadcast bias is read at the column. -/
theorem bias_idx (b : Fin 4) (s : Fin 2048) (e : Fin 1024) : idx_main_v32 (idx_main_v33 (ix3 b s e)) = ix1 e :=
  funext fun a => Fin.ext (by
    match a with
    | ⟨0, _⟩ => rfl)

/-- The reshaped heads' outputs at (b, s, k), given what the heads' outputs are. -/
theorem heads_at (x0 : S4x2048x1024.Idx → EReal) (x1 : S2048x2048.Idx → EReal) (x2 : S1024x3072.Idx → EReal)
    (x3 : S3072.Idx → EReal) (Q K Vv : AH)
    (hA : ∀ (b : Fin 4) (h : Fin 16) (s : Fin 2048) (d : Fin 64),
      val_main_v28 (F := Ideal) x0 x1 x2 x3 (ix4 b h s d) = headOut ninf scale Q K Vv x1 b h s d)
    (b : Fin 4) (s : Fin 2048) (k : Fin 1024) :
    val_main_v30 (F := Ideal) x0 x1 x2 x3 (ix3 b s k)
      = headOut ninf scale Q K Vv x1 b (⟨k.val / 64, by omega⟩ : Fin 16) s (⟨k.val % 64, Nat.mod_lt _ (by norm_num)⟩ : Fin 64) := by
  rw [val_main_v30_apply, val_main_v29_apply, reshape_at, transpose_at, hA]

end Tail

/-- If the heads' outputs (the second product's result, [4, 16, 2048, 64]) are `headOut` of some query, key and value
    arrays, the reference's result is the output projection of their attention. -/
theorem ref_tail (x0 : S4x2048x1024.Idx → EReal) (x1 : S2048x2048.Idx → EReal) (x2 : S1024x3072.Idx → EReal)
    (x3 : S3072.Idx → EReal) (x4 : S1024x1024.Idx → EReal) (x5 : S1024.Idx → EReal) (Q K Vv : AH)
    (hA : ∀ (b : Fin 4) (h : Fin 16) (s : Fin 2048) (d : Fin 64),
      val_main_v28 (F := Ideal) x0 x1 x2 x3 (ix4 b h s d) = headOut ninf scale Q K Vv x1 b h s d) :
    val_main_v34 (F := Ideal) x0 x1 x2 x3 x4 x5 = unflat (outp (flat (attn ninf scale Q K Vv x1)) x4 (rowOf x5)) := by
  funext i
  obtain ⟨b, s, e, rfl⟩ : ∃ (b : Fin 4) (s : Fin 2048) (e : Fin 1024), i = ix3 b s e := ⟨i 0, i 1, i 2, eq_ix3 i⟩
  rw [Tail.spec_at, val_main_v34_apply, val_main_v31_apply, val_main_v33_apply, val_main_v32_apply, Tail.bias_idx]
  refine congrArg₂ (· + ·) (Finset.sum_congr rfl fun k _ => ?_) rfl
  rw [Tail.lidx_at, Tail.ridx_at, Tail.heads_at x0 x1 x2 x3 Q K Vv hA]

end Cert.ReferenceIdeal.Hand

end
-- ==== Proof.RefValue.lean ====
/-
  The reference's composed term is the function `G` of its six arguments, index by index.

  The stages, each read at an index with explicit coordinates: the fused projection x · Wqkv + bqkv regrouped per head
  (its three slices are the projections `proj 0`, `proj 64`, `proj 128`); the scores (q · k) * scale + mask, where the
  computed 1 / sqrt 64 is the literal scale; the row maximum, a fold of max from the word of -inf, which a further
  maximum with that word does not change; the shifted exponentials, their sum and the softmax weights; one head's
  output. The transposition and reshape of the heads and the output projection are the tail, `ref_tail`.
-/
import proofs.«428168_j50998441673227_3_alg».proof.Proof.Gen.ReferenceIdeal.Read
import proofs.«428168_j50998441673227_3_alg».proof.Proof.Spec
import proofs.«428168_j50998441673227_3_alg».proof.Proof.RefTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read Cert.Attention

namespace Ref

/-- An equation between two indices of rank 2 whose coordinates agree by computation. -/
local macro "idx2" : tactic => `(tactic| (funext a; match a with | ⟨0, _⟩ => rfl | ⟨1, _⟩ => rfl))
/-- The same at rank 3. -/
local macro "idx3" : tactic => `(tactic| (funext a; match a with | ⟨0, _⟩ => rfl | ⟨1, _⟩ => rfl | ⟨2, _⟩ => rfl))
/-- The same at rank 4. -/
local macro "idx4" : tactic => `(tactic| (funext a; match a with | ⟨0, _⟩ => rfl | ⟨1, _⟩ => rfl | ⟨2, _⟩ => rfl | ⟨3, _⟩ => rfl))

/-- The flattened array at row b * 2048 + s is the array at (b, s). -/
theorem flat_at (a : A3) (b : Fin 4) (s : Fin 2048) (e : Fin 1024) (hb : b.val * 2048 + s.val < 8192) :
    flat a (ix2 (⟨b.val * 2048 + s.val, hb⟩ : Fin 8192) e) = a (ix3 b s e) := by
  unfold flat
  refine congrArg a ?_
  funext d
  match d with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

/-- The fused projection before slicing: entry (b, h, s, e) is column h * 192 + e of row (b, s) of x · W + bias. -/
theorem v5_at (x0 : S4x2048x1024.Idx → EReal) (x2 : S1024x3072.Idx → EReal) (x3 : S3072.Idx → EReal)
    (b : Fin 4) (h : Fin 16) (s : Fin 2048) (e : Fin 192) (he : h.val * 192 + e.val < 3072) :
    val_main_v5 (F := Ideal) x0 x2 x3 (ix4 b h s e)
      = (∑ k : Fin 1024, x0 (ix3 b s k) * x2 (ix2 k (⟨h.val * 192 + e.val, he⟩ : Fin 3072)))
        + x3 (ix1 (⟨h.val * 192 + e.val, he⟩ : Fin 3072)) := by
  have e4 : idx_main_v4 (idx_main_v5 (ix4 b h s e)) = ix3 b s (⟨h.val * 192 + e.val, he⟩ : Fin 3072) := by
    funext d
    match d with
    | ⟨0, _⟩ => exact Fin.ext (by show (((b.val * 2048 + s.val) * 16 + h.val) * 192 + e.val) / 6291456 = b.val; omega)
    | ⟨1, _⟩ => exact Fin.ext (by show (((b.val * 2048 + s.val) * 16 + h.val) * 192 + e.val) / 3072 % 2048 = s.val; omega)
    | ⟨2, _⟩ => exact Fin.ext (by show (((b.val * 2048 + s.val) * 16 + h.val) * 192 + e.val) % 3072 = h.val * 192 + e.val; omega)
  have el : ∀ k : Fin 1024, lidx_main_v0 (ix3 b s (⟨h.val * 192 + e.val, he⟩ : Fin 3072)) k = ix3 b s k := fun k => by idx3
  have er : ∀ k : Fin 1024, ridx_main_v0 (ix3 b s (⟨h.val * 192 + e.val, he⟩ : Fin 3072)) k
      = ix2 k (⟨h.val * 192 + e.val, he⟩ : Fin 3072) := fun k => by idx2
  have eb : idx_main_v1 (idx_main_v2 (ix3 b s (⟨h.val * 192 + e.val, he⟩ : Fin 3072)))
      = ix1 (⟨h.val * 192 + e.val, he⟩ : Fin 3072) := by
    funext a; match a with | ⟨0, _⟩ => rfl
  rw [val_main_v5_apply, val_main_v4_apply, e4, val_main_v3_apply, val_main_v0_apply, val_main_v2_apply, val_main_v1_apply, eb]
  simp only [el, er]
  rfl

/-- A slice of the fused projection at offset `off` is the projection `proj off`. -/
theorem slice_eq_proj (off : Nat) (hoff : off + 64 ≤ 192) (x0 : S4x2048x1024.Idx → EReal) (x2 : S1024x3072.Idx → EReal)
    (x3 : S3072.Idx → EReal) (y : S4x16x2048x64.Idx → EReal) (idx : S4x16x2048x64.Idx → S4x16x2048x192.Idx)
    (hy : ∀ i, y i = val_main_v5 (F := Ideal) x0 x2 x3 (idx i))
    (hidx : ∀ (b : Fin 4) (h : Fin 16) (s : Fin 2048) (d : Fin 64), idx (ix4 b h s d) = ix4 b h s (⟨off + d.val, by omega⟩ : Fin 192)) :
    y = proj off hoff (flat x0) x2 (rowOf x3) := by
  funext i
  obtain ⟨b, h, s, d, rfl⟩ : ∃ (b : Fin 4) (h : Fin 16) (s : Fin 2048) (d : Fin 64), i = ix4 b h s d := ⟨i 0, i 1, i 2, i 3, eq_ix4 i⟩
  rw [hy, hidx, v5_at x0 x2 x3 b h s _ (by have := h.isLt; have := d.isLt; show h.val * 192 + (off + d.val) < 3072; omega)]
  show _ = projAt off hoff (flat x0) x2 (rowOf x3) b h s d
  unfold projAt
  have hc : (⟨h.val * 192 + (off + d.val), by have := h.isLt; have := d.isLt; omega⟩ : Fin 3072)
      = (⟨h.val * 192 + off + d.val, by have := h.isLt; have := d.isLt; omega⟩ : Fin 3072) := Fin.ext (by show h.val * 192 + (off + d.val) = h.val * 192 + off + d.val; omega)
  rw [hc]
  refine congrArg₂ (· + ·) (Finset.sum_congr rfl fun k _ => ?_) rfl
  rw [flat_at]

/-- The query slice. -/
theorem v6_eq (x0 : S4x2048x1024.Idx → EReal) (x2 : S1024x3072.Idx → EReal) (x3 : S3072.Idx → EReal) :
    val_main_v6 (F := Ideal) x0 x2 x3 = proj 0 (by norm_num) (flat x0) x2 (rowOf x3) :=
  slice_eq_proj 0 (by norm_num) x0 x2 x3 (val_main_v6 (F := Ideal) x0 x2 x3) idx_main_v6 (val_main_v6_apply (F := Ideal) x0 x2 x3) (fun b h s d => by
    funext a
    match a with
    | ⟨0, _⟩ => rfl
    | ⟨1, _⟩ => rfl
    | ⟨2, _⟩ => rfl
    | ⟨3, _⟩ => exact Fin.ext (by show d.val = 0 + d.val; omega))

/-- The key slice. -/
theorem v7_eq (x0 : S4x2048x1024.Idx → EReal) (x2 : S1024x3072.Idx → EReal) (x3 : S3072.Idx → EReal) :
    val_main_v7 (F := Ideal) x0 x2 x3 = proj 64 (by norm_num) (flat x0) x2 (rowOf x3) :=
  slice_eq_proj 64 (by norm_num) x0 x2 x3 (val_main_v7 (F := Ideal) x0 x2 x3) idx_main_v7 (val_main_v7_apply (F := Ideal) x0 x2 x3) (fun b h s d => by idx4)

/-- The value slice. -/
theorem v8_eq (x0 : S4x2048x1024.Idx → EReal) (x2 : S1024x3072.Idx → EReal) (x3 : S3072.Idx → EReal) :
    val_main_v8 (F := Ideal) x0 x2 x3 = proj 128 (by norm_num) (flat x0) x2 (rowOf x3) :=
  slice_eq_proj 128 (by norm_num) x0 x2 x3 (val_main_v8 (F := Ideal) x0 x2 x3) idx_main_v8 (val_main_v8_apply (F := Ideal) x0 x2 x3) (fun b h s d => by idx4)

/-- The scores before the softmax: (q · k) * scale + mask, with the computed 1 / sqrt 64 read as the literal scale. -/
theorem v16_at (x0 : S4x2048x1024.Idx → EReal) (x1 : S2048x2048.Idx → EReal) (x2 : S1024x3072.Idx → EReal)
    (x3 : S3072.Idx → EReal) (b : Fin 4) (h : Fin 16) (s t : Fin 2048) :
    val_main_v16 (F := Ideal) x0 x1 x2 x3 (ix4 b h s t)
      = score scale (val_main_v6 (F := Ideal) x0 x2 x3) (val_main_v7 (F := Ideal) x0 x2 x3) x1 b h s t := by
  have el : ∀ k : Fin 64, lidx_main_v11 (ix4 b h s t) k = ix4 b h s k := fun k => by idx4
  have er : ∀ k : Fin 64, ridx_main_v11 (ix4 b h s t) k = ix4 b h t k := fun k => by idx4
  have em : idx_main_v14 (idx_main_v15 (ix4 b h s t)) = ix2 s t := by idx2
  rw [val_main_v16_apply, val_main_v13_apply, val_main_v11_apply, val_main_v12_apply, val_main_v10_apply,
    val_main_cst_0_apply, val_main_v9_apply, val_main_cst_apply, val_main_v15_apply, val_main_v14_apply, em]
  simp only [el, er]
  show (∑ k : Fin 64, val_main_v6 (F := Ideal) x0 x2 x3 (ix4 b h s k) * val_main_v7 (F := Ideal) x0 x2 x3 (ix4 b h t k))
      * Ideal.div (Ideal.ofBits .f32 0x3F800000#32) (Ideal.sqrt (Ideal.ofBits .f32 0x42800000#32)) + x1 (ix2 s t) = _
  rw [scale_eq]
  rfl

/-- The row maximum: the fold of max from the word of -inf over the key positions. -/
theorem v17_at (x0 : S4x2048x1024.Idx → EReal) (x1 : S2048x2048.Idx → EReal) (x2 : S1024x3072.Idx → EReal)
    (x3 : S3072.Idx → EReal) (b : Fin 4) (h : Fin 16) (s : Fin 2048) :
    val_main_v17 (F := Ideal) x0 x1 x2 x3 (ix3 b h s)
      = rowMax ninf scale (val_main_v6 (F := Ideal) x0 x2 x3) (val_main_v7 (F := Ideal) x0 x2 x3) x1 b h s := by
  have hR : S4x16x2048x2048.Reduces [3] S4x16x2048 := by decide
  unfold val_main_v17
  have key := Host.reduce_eq_fold_single (α := Ideal .f32) (s := S4x16x2048x2048) (t := S4x16x2048) (a := (3 : Fin 4)) (u := S_)
    (FloatOps.maximumf (F := Ideal) (φ := .f32)) (val_main_v16 (F := Ideal) x0 x1 x2 x3) (val_main_cst_1 (F := Ideal))
    reducesTo_S4x16x2048x2048_S4x16x2048_d3 hR h_S_ (ix3 b h s)
  refine key.trans ?_
  show (Finset.univ : Finset (Fin 2048)).fold max ninf
      (fun t : Fin 2048 => val_main_v16 (F := Ideal) x0 x1 x2 x3 (hR.lift (ix3 b h s) t)) = _
  unfold rowMax
  refine Finset.fold_congr fun t _ => ?_
  have e : hR.lift (ix3 b h s) t = ix4 b h s t := by idx4
  rw [e, v16_at]

/-- Taking the maximum with the word of -inf once more changes nothing: the fold already starts there. -/
theorem v19_at (x0 : S4x2048x1024.Idx → EReal) (x1 : S2048x2048.Idx → EReal) (x2 : S1024x3072.Idx → EReal)
    (x3 : S3072.Idx → EReal) (b : Fin 4) (h : Fin 16) (s : Fin 2048) :
    val_main_v19 (F := Ideal) x0 x1 x2 x3 (ix3 b h s)
      = rowMax ninf scale (val_main_v6 (F := Ideal) x0 x2 x3) (val_main_v7 (F := Ideal) x0 x2 x3) x1 b h s := by
  rw [val_main_v19_apply, val_main_v18_apply, val_main_cst_2_apply, v17_at]
  show max ninf (rowMax ninf scale _ _ x1 b h s) = _
  refine max_eq_right ?_
  unfold rowMax
  exact (Finset.le_fold_max _).mpr (Or.inl le_rfl)

/-- The row maximum spread back over the key positions. -/
theorem v21_at (x0 : S4x2048x1024.Idx → EReal) (x1 : S2048x2048.Idx → EReal) (x2 : S1024x3072.Idx → EReal)
    (x3 : S3072.Idx → EReal) (b : Fin 4) (h : Fin 16) (s t : Fin 2048) :
    val_main_v21 (F := Ideal) x0 x1 x2 x3 (ix4 b h s t)
      = rowMax ninf scale (val_main_v6 (F := Ideal) x0 x2 x3) (val_main_v7 (F := Ideal) x0 x2 x3) x1 b h s := by
  have e : idx_main_v20 (idx_main_v21 (ix4 b h s t)) = ix3 b h s := by idx3
  rw [val_main_v21_apply, val_main_v20_apply, e, v19_at]

/-- The shifted exponentials. -/
theorem v23_at (x0 : S4x2048x1024.Idx → EReal) (x1 : S2048x2048.Idx → EReal) (x2 : S1024x3072.Idx → EReal)
    (x3 : S3072.Idx → EReal) (b : Fin 4) (h : Fin 16) (s t : Fin 2048) :
    val_main_v23 (F := Ideal) x0 x1 x2 x3 (ix4 b h s t)
      = pnum ninf scale (val_main_v6 (F := Ideal) x0 x2 x3) (val_main_v7 (F := Ideal) x0 x2 x3) x1 b h s t := by
  rw [val_main_v23_apply, val_main_v22_apply, v16_at, v21_at]
  rfl

/-- Their sum over the key positions (the sum starts from the word of zero). -/
theorem v24_at (x0 : S4x2048x1024.Idx → EReal) (x1 : S2048x2048.Idx → EReal) (x2 : S1024x3072.Idx → EReal)
    (x3 : S3072.Idx → EReal) (b : Fin 4) (h : Fin 16) (s : Fin 2048) :
    val_main_v24 (F := Ideal) x0 x1 x2 x3 (ix3 b h s)
      = ∑ t : Fin 2048, pnum ninf scale (val_main_v6 (F := Ideal) x0 x2 x3) (val_main_v7 (F := Ideal) x0 x2 x3) x1 b h s t := by
  have e : ∀ t : Fin 2048, idx_main_v24 (ix3 b h s) t = ix4 b h s t := fun t => by idx4
  rw [val_main_v24_apply, val_main_cst_3_apply]
  simp only [e, v23_at]
  show Ideal.ofBits .f32 0x00000000#32 + _ = _
  rw [Ideal.ofBits_zero_f32, zero_add]

/-- The softmax weights. -/
theorem v27_at (x0 : S4x2048x1024.Idx → EReal) (x1 : S2048x2048.Idx → EReal) (x2 : S1024x3072.Idx → EReal)
    (x3 : S3072.Idx → EReal) (b : Fin 4) (h : Fin 16) (s t : Fin 2048) :
    val_main_v27 (F := Ideal) x0 x1 x2 x3 (ix4 b h s t)
      = weight ninf scale (val_main_v6 (F := Ideal) x0 x2 x3) (val_main_v7 (F := Ideal) x0 x2 x3) x1 b h s t := by
  have e : idx_main_v25 (idx_main_v26 (ix4 b h s t)) = ix3 b h s := by idx3
  rw [val_main_v27_apply, val_main_v26_apply, val_main_v25_apply, e, v23_at, v24_at]
  rfl

/-- One head's output: the weights applied to the values. -/
theorem v28_at (x0 : S4x2048x1024.Idx → EReal) (x1 : S2048x2048.Idx → EReal) (x2 : S1024x3072.Idx → EReal)
    (x3 : S3072.Idx → EReal) (b : Fin 4) (h : Fin 16) (s : Fin 2048) (d : Fin 64) :
    val_main_v28 (F := Ideal) x0 x1 x2 x3 (ix4 b h s d)
      = headOut ninf scale (val_main_v6 (F := Ideal) x0 x2 x3) (val_main_v7 (F := Ideal) x0 x2 x3)
          (val_main_v8 (F := Ideal) x0 x2 x3) x1 b h s d := by
  have el : ∀ t : Fin 2048, lidx_main_v28 (ix4 b h s d) t = ix4 b h s t := fun t => by idx4
  have er : ∀ t : Fin 2048, ridx_main_v28 (ix4 b h s d) t = ix4 b h t d := fun t => by idx4
  rw [val_main_v28_apply]
  simp only [el, er, v27_at]
  rfl

/-- The same with the three slices named as the projections. -/
theorem v28_proj (x0 : S4x2048x1024.Idx → EReal) (x1 : S2048x2048.Idx → EReal) (x2 : S1024x3072.Idx → EReal)
    (x3 : S3072.Idx → EReal) (b : Fin 4) (h : Fin 16) (s : Fin 2048) (d : Fin 64) :
    val_main_v28 (F := Ideal) x0 x1 x2 x3 (ix4 b h s d)
      = headOut ninf scale (proj 0 (by norm_num) (flat x0) x2 (rowOf x3)) (proj 64 (by norm_num) (flat x0) x2 (rowOf x3))
          (proj 128 (by norm_num) (flat x0) x2 (rowOf x3)) x1 b h s d := by
  rw [v28_at, v6_eq, v7_eq, v8_eq]

end Ref

/-- The reference's last stage, as a function of the six arguments, is `G`. -/
theorem ref_eq (x0 : S4x2048x1024.Idx → EReal) (x1 : S2048x2048.Idx → EReal) (x2 : S1024x3072.Idx → EReal)
    (x3 : S3072.Idx → EReal) (x4 : S1024x1024.Idx → EReal) (x5 : S1024.Idx → EReal) :
    val_main_v34 (F := Ideal) x0 x1 x2 x3 x4 x5 = G x0 x1 x2 x3 x4 x5 :=
  (ref_tail x0 x1 x2 x3 x4 x5 _ _ _ (Ref.v28_proj x0 x1 x2 x3)).trans (by unfold G; rfl)

end Cert.ReferenceIdeal.Hand

end
-- ==== Proof.lean ====
/-
  Multi-head self-attention in three pallas_calls (fused query/key/value projection; softmax attention two heads per grid
  point; output projection) against the jnp reference, over the extended reals.

  Both programs compute the function `G` of Proof/Spec.lean of their six arguments: at the ideal instance a change of float
  format is the identity, a matrix product into a zero accumulator is the plain sum of products, sums and maxima do not
  depend on how a tiling groups them, and the reference's scale 1 / sqrt 64 is the kernel's literal 1/8. No law used needs
  finiteness: the two sides apply the same operations to the same elements, only laid out differently.

  The kernel program's run ends with its result buffer at the fold of the three regions and the host stretches between them
  (Proof/KernelRun.lean); that fold is `G` of the arguments (Proof/KernelValue.lean over the three regions' value theorems
  Proof/QkvValue.lean, Proof/AttnValue.lean, Proof/OutValue.lean); the reference's run ends at its composed term, which is
  `G` of the arguments index by index (Proof/RefValue.lean). The three frames are the runs with the results dropped; the
  idealization rewrote nothing, so there is nothing to preserve.
-/
import proofs.«428168_j50998441673227_3_alg».proof.Defs
import proofs.«428168_j50998441673227_3_alg».proof.Proof.Gen.Kernel
import proofs.«428168_j50998441673227_3_alg».proof.Proof.Gen.Kernel.Skeleton
import proofs.«428168_j50998441673227_3_alg».proof.Proof.Gen.Kernel.Launch
import proofs.«428168_j50998441673227_3_alg».proof.Proof.Gen.Kernel.Points
import proofs.«428168_j50998441673227_3_alg».proof.Proof.Gen.Kernel.Frame
import proofs.«428168_j50998441673227_3_alg».proof.Proof.Gen.KernelIdeal
import proofs.«428168_j50998441673227_3_alg».proof.Proof.Gen.KernelIdeal.Skeleton
import proofs.«428168_j50998441673227_3_alg».proof.Proof.Gen.KernelIdeal.Launch
import proofs.«428168_j50998441673227_3_alg».proof.Proof.Gen.KernelIdeal.Points
import proofs.«428168_j50998441673227_3_alg».proof.Proof.Gen.KernelIdeal.Frame
import proofs.«428168_j50998441673227_3_alg».proof.Proof.Gen.ReferenceIdeal
import proofs.«428168_j50998441673227_3_alg».proof.Proof.Gen.ReferenceIdeal.Run
import proofs.«428168_j50998441673227_3_alg».proof.Proof.Gen.ReferenceIdeal.Read
import proofs.«428168_j50998441673227_3_alg».proof.Proof.Gen.Pre_finite_inputs
import proofs.«428168_j50998441673227_3_alg».proof.Proof.Spec
import proofs.«428168_j50998441673227_3_alg».proof.Proof.KernelRun
import proofs.«428168_j50998441673227_3_alg».proof.Proof.KernelValue
import proofs.«428168_j50998441673227_3_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their results at `G` of the arguments. -/
theorem algebraic : Cert.algebraic_KernelIdeal_ReferenceIdeal := by
  intro m ρ m' ρ' _ hagree
  refine ⟨fun c => Cert.Attention.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.Hand.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
